-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1536 : Shape := ⟨2, ![16384, 1536]⟩
abbrev S16384 : Shape := ⟨1, ![16384]⟩
abbrev S128x1536 : Shape := ⟨2, ![128, 1536]⟩
abbrev S128 : Shape := ⟨1, ![128]⟩
abbrev S16x1536 : Shape := ⟨2, ![16, 1536]⟩
abbrev S16 : Shape := ⟨1, ![16]⟩
abbrev S512x30 : Shape := ⟨2, ![512, 30]⟩
abbrev S512 : Shape := ⟨1, ![512]⟩
abbrev S8x64 : Shape := ⟨2, ![8, 64]⟩
abbrev S8 : Shape := ⟨1, ![8]⟩
abbrev S_ : Shape := ⟨0, ![]⟩

class Facts : Prop where
  bcast_S_S16384x1536 : S_.BroadcastsInDim S16384x1536 (![] : Fin 0 → Fin S16384x1536.rank)
  reducesTo_S16384x1536_S_d0_1 : S16384x1536.ReducesTo [0, 1] S_
  h_S_ : 0 < S_.numel
  bcast_S_S128x1536 : S_.BroadcastsInDim S128x1536 (![] : Fin 0 → Fin S128x1536.rank)
  reducesTo_S128x1536_S_d0_1 : S128x1536.ReducesTo [0, 1] S_
  bcast_S_S128 : S_.BroadcastsInDim S128 (![] : Fin 0 → Fin S128.rank)
  reducesTo_S128_S_d0 : S128.ReducesTo [0] S_
  bcast_S_S16x1536 : S_.BroadcastsInDim S16x1536 (![] : Fin 0 → Fin S16x1536.rank)
  reducesTo_S16x1536_S_d0_1 : S16x1536.ReducesTo [0, 1] S_
  bcast_S_S16 : S_.BroadcastsInDim S16 (![] : Fin 0 → Fin S16.rank)
  reducesTo_S16_S_d0 : S16.ReducesTo [0] S_
  bcast_S_S512x30 : S_.BroadcastsInDim S512x30 (![] : Fin 0 → Fin S512x30.rank)
  reducesTo_S512x30_S_d0_1 : S512x30.ReducesTo [0, 1] S_
  bcast_S_S512 : S_.BroadcastsInDim S512 (![] : Fin 0 → Fin S512.rank)
  reducesTo_S512_S_d0 : S512.ReducesTo [0] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_
  bcast_S_S16384 : S_.BroadcastsInDim S16384 (![] : Fin 0 → Fin S16384.rank)
  reducesTo_S16384_S_d0 : S16384.ReducesTo [0] S_

variable [Facts]

def fn_part3 {F : FTy → Type} [FloatOps F] (main_v47 : IVec S_ 1) (main_v49 : IVec S16384 1) (main_c_19 : IVec S_ 1) : IVec S_ 1 :=
  let main_v50 : IVec S_ 1 := (fun x v => Host.reduce IntOp.andi x v reducesTo_S16384_S_d0 h_S_) main_v49 main_c_19
  let main_v51 : IVec S_ 1 := andi main_v47 main_v50
  main_v51

def fn_part2 {F : FTy → Type} [FloatOps F] (main_arg1 : IVec S16384 32) (main_arg8 : FVec F S8x64 .f32) (main_arg9 : FVec F S8 .f32) (main_v33 : IVec S_ 1) : IVec S_ 1 :=
  let main_v34 : FVec F S8x64 .f32 := Host.absf main_arg8
  let main_cst_12 : FVec F S_ .f32 := constant S_ .f32 0x7F800000#32
  let main_v35 : FVec F S8x64 .f32 := broadcastInDim S8x64 ![] bcast_S_S8x64 main_cst_12
  let main_v36 : IVec S8x64 1 := cmpf .olt main_v34 main_v35
  let main_c_13 : IVec S_ 1 := constantI S_ 1 1#1
  let main_v37 : IVec S_ 1 := (fun x v => Host.reduce IntOp.andi x v reducesTo_S8x64_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_c_16 : IVec S_ 32 := constantI S_ 32 0#32
  let main_v44 : IVec S16384 32 := broadcastInDim S16384 ![] bcast_S_S16384 main_c_16
  let main_v45 : IVec S16384 1 := cmpi .sge main_arg1 main_v44
  let main_c_17 : IVec S_ 1 := constantI S_ 1 1#1
  let main_v46 : IVec S_ 1 := (fun x v => Host.reduce IntOp.andi x v reducesTo_S16384_S_d0 h_S_) main_v45 main_c_17
  let main_v47 : IVec S_ 1 := andi main_v43 main_v46
  let main_c_18 : IVec S_ 32 := constantI S_ 32 8#32
  let main_v48 : IVec S16384 32 := broadcastInDim S16384 ![] bcast_S_S16384 main_c_18
  let main_v49 : IVec S16384 1 := cmpi .slt main_arg1 main_v48
  let main_c_19 : IVec S_ 1 := constantI S_ 1 1#1
  fn_part3 (F := F) main_v47 main_v49 main_c_19

def fn_part1 {F : FTy → Type} [FloatOps F] (main_arg1 : IVec S16384 32) (main_arg5 : FVec F S16 .f32) (main_arg6 : FVec F S512x30 .f32) (main_arg7 : FVec F S512 .f32) (main_arg8 : FVec F S8x64 .f32) (main_arg9 : FVec F S8 .f32) (main_v13 : IVec S_ 1) (main_v16 : IVec S16x1536 1) : IVec S_ 1 :=
  let main_c_5 : IVec S_ 1 := constantI S_ 1 1#1
  let main_v17 : IVec S_ 1 := (fun x v => Host.reduce IntOp.andi x v reducesTo_S16x1536_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S512x30 .f32 := Host.absf main_arg6
  let main_cst_8 : FVec F S_ .f32 := constant S_ .f32 0x7F800000#32
  let main_v25 : FVec F S512x30 .f32 := broadcastInDim S512x30 ![] bcast_S_S512x30 main_cst_8
  let main_v26 : IVec S512x30 1 := cmpf .olt main_v24 main_v25
  let main_c_9 : IVec S_ 1 := constantI S_ 1 1#1
  let main_v27 : IVec S_ 1 := (fun x v => Host.reduce IntOp.andi x v reducesTo_S512x30_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_arg8 main_arg9 main_v33

def fn {F : FTy → Type} [FloatOps F] (main_arg0 : FVec F S16384x1536 .f32) (main_arg1 : IVec S16384 32) (main_arg2 : FVec F S128x1536 .f32) (main_arg3 : FVec F S128 .f32) (main_arg4 : FVec F S16x1536 .f32) (main_arg5 : FVec F S16 .f32) (main_arg6 : FVec F S512x30 .f32) (main_arg7 : FVec F S512 .f32) (main_arg8 : FVec F S8x64 .f32) (main_arg9 : FVec F S8 .f32) : IVec S_ 1 :=
  let main_v0 : FVec F S16384x1536 .f32 := Host.absf main_arg0
  let main_cst : FVec F S_ .f32 := constant S_ .f32 0x7F800000#32
  let main_v1 : FVec F S16384x1536 .f32 := broadcastInDim S16384x1536 ![] bcast_S_S16384x1536 main_cst
  let main_v2 : IVec S16384x1536 1 := cmpf .olt main_v0 main_v1
  let main_c : IVec S_ 1 := constantI S_ 1 1#1
  let main_v3 : IVec S_ 1 := (fun x v => Host.reduce IntOp.andi x v reducesTo_S16384x1536_S_d0_1 h_S_) main_v2 main_c
  let main_v4 : FVec F S128x1536 .f32 := Host.absf main_arg2
  let main_cst_0 : FVec F S_ .f32 := constant S_ .f32 0x7F800000#32
  let main_v5 : FVec F S128x1536 .f32 := broadcastInDim S128x1536 ![] bcast_S_S128x1536 main_cst_0
  let main_v6 : IVec S128x1536 1 := cmpf .olt main_v4 main_v5
  let main_c_1 : IVec S_ 1 := constantI S_ 1 1#1
  let main_v7 : IVec S_ 1 := (fun x v => Host.reduce IntOp.andi x v reducesTo_S128x1536_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S16x1536 .f32 := Host.absf main_arg4
  let main_cst_4 : FVec F S_ .f32 := constant S_ .f32 0x7F800000#32
  let main_v15 : FVec F S16x1536 .f32 := broadcastInDim S16x1536 ![] bcast_S_S16x1536 main_cst_4
  let main_v16 : IVec S16x1536 1 := cmpf .olt main_v14 main_v15
  fn_part1 (F := F) main_arg1 main_arg5 main_arg6 main_arg7 main_arg8 main_arg9 main_v13 main_v16
-- ==== Kernel.lean ====
abbrev S16384x1536 : Shape := ⟨2, ![16384, 1536]⟩
abbrev S16384 : Shape := ⟨1, ![16384]⟩
abbrev S128x1536 : Shape := ⟨2, ![128, 1536]⟩
abbrev S128 : Shape := ⟨1, ![128]⟩
abbrev S16x1536 : Shape := ⟨2, ![16, 1536]⟩
abbrev S16 : Shape := ⟨1, ![16]⟩
abbrev S512x30 : Shape := ⟨2, ![512, 30]⟩
abbrev S512 : Shape := ⟨1, ![512]⟩
abbrev S8x64 : Shape := ⟨2, ![8, 64]⟩
abbrev S8 : Shape := ⟨1, ![8]⟩
abbrev S144x1536 : Shape := ⟨2, ![144, 1536]⟩
abbrev S144 : Shape := ⟨1, ![144]⟩
abbrev S1536x144 : Shape := ⟨2, ![1536, 144]⟩
abbrev S30x512 : Shape := ⟨2, ![30, 512]⟩
abbrev S64x8 : Shape := ⟨2, ![64, 8]⟩
abbrev S_ : Shape := ⟨0, ![]⟩
abbrev S16384x1 : Shape := ⟨2, ![16384, 1]⟩
abbrev S1024x1536 : Shape := ⟨2, ![1024, 1536]⟩
abbrev S1024x1 : Shape := ⟨2, ![1024, 1]⟩
abbrev S1024x144 : Shape := ⟨2, ![1024, 144]⟩
abbrev S1x144 : Shape := ⟨2, ![1, 144]⟩
abbrev S1024x128 : Shape := ⟨2, ![1024, 128]⟩
abbrev S1024x16 : Shape := ⟨2, ![1024, 16]⟩
abbrev S1024x8 : Shape := ⟨2, ![1024, 8]⟩
abbrev S1024x15 : Shape := ⟨2, ![1024, 15]⟩
abbrev S1024x30 : Shape := ⟨2, ![1024, 30]⟩
abbrev S1024x512 : Shape := ⟨2, ![1024, 512]⟩
abbrev S1x512 : Shape := ⟨2, ![1, 512]⟩
abbrev S1024x64 : Shape := ⟨2, ![1024, 64]⟩
abbrev S1x8 : Shape := ⟨2, ![1, 8]⟩
abbrev S1024 : Shape := ⟨1, ![1024]⟩

abbrev nBuf : Space → Nat
  | .hbm => 28
  | .vmem => 12
  | .smem => 0
  | _ => 0

abbrev bufTy : (tb : Table) → Fin (tcTables nBuf tb) → BufTy
  | .hbm, ⟨0, _⟩ => ⟨S16384x1536, .f32⟩
  | .hbm, ⟨1, _⟩ => ⟨S16384, .i32⟩
  | .hbm, ⟨2, _⟩ => ⟨S128x1536, .f32⟩
  | .hbm, ⟨3, _⟩ => ⟨S128, .f32⟩
  | .hbm, ⟨4, _⟩ => ⟨S16x1536, .f32⟩
  | .hbm, ⟨5, _⟩ => ⟨S16, .f32⟩
  | .hbm, ⟨6, _⟩ => ⟨S512x30, .f32⟩
  | .hbm, ⟨7, _⟩ => ⟨S512, .f32⟩
  | .hbm, ⟨8, _⟩ => ⟨S8x64, .f32⟩
  | .hbm, ⟨9, _⟩ => ⟨S8, .f32⟩
  | .hbm, ⟨10, _⟩ => ⟨S144x1536, .f32⟩
  | .hbm, ⟨11, _⟩ => ⟨S144, .f32⟩
  | .hbm, ⟨12, _⟩ => ⟨S144x1536, .bf16⟩
  | .hbm, ⟨13, _⟩ => ⟨S1536x144, .bf16⟩
  | .hbm, ⟨14, _⟩ => ⟨S512x30, .bf16⟩
  | .hbm, ⟨15, _⟩ => ⟨S30x512, .bf16⟩
  | .hbm, ⟨16, _⟩ => ⟨S8x64, .bf16⟩
  | .hbm, ⟨17, _⟩ => ⟨S64x8, .bf16⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S16384x1, .f32⟩
  | .local _ .vmem, ⟨0, _⟩ => ⟨S1024x1536, .f32⟩
  | .local _ .vmem, ⟨1, _⟩ => ⟨S1024x1536, .f32⟩
  | .local _ .vmem, ⟨2, _⟩ => ⟨S1024x1, .i32⟩
  | .local _ .vmem, ⟨3, _⟩ => ⟨S1024x1, .i32⟩
  | .local _ .vmem, ⟨4, _⟩ => ⟨S1536x144, .bf16⟩
  | .local _ .vmem, ⟨5, _⟩ => ⟨S144, .f32⟩
  | .local _ .vmem, ⟨6, _⟩ => ⟨S30x512, .bf16⟩
  | .local _ .vmem, ⟨7, _⟩ => ⟨S512, .f32⟩
  | .local _ .vmem, ⟨8, _⟩ => ⟨S64x8, .bf16⟩
  | .local _ .vmem, ⟨9, _⟩ => ⟨S8, .f32⟩
  | .local _ .vmem, ⟨10, _⟩ => ⟨S1024x1, .f32⟩
  | .local _ .vmem, ⟨11, _⟩ => ⟨S1024x1, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S30x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x8 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S128x1536_S16x1536_S144x1536_d0 : Shape.Concatenates [S128x1536, S16x1536] S144x1536 0
  concatenates_S128_S16_S144_d0 : Shape.Concatenates [S128, S16] S144 0
  bitsLt_bf16_f32 : FTy.bits .bf16 < FTy.bits .f32
  transposes_S144x1536_S1536x144_1_0 : S144x1536.Transposes [1, 0] S1536x144
  transposes_S512x30_S30x512_1_0 : S512x30.Transposes [1, 0] S30x512
  transposes_S8x64_S64x8_1_0 : S8x64.Transposes [1, 0] S64x8
  bcast_S_S16384 : S_.BroadcastsInDim S16384 (![] : Fin 0 → Fin S16384.rank)
  shapeCasts_S16384_S16384x1 : S16384.ShapeCasts S16384x1
  inb_S1024x1536_S1024x1536_0_0 : ∀ a, (![0, 0] : Fin 2 → Nat) a + S1024x1536.size a ≤ S1024x1536.size a
  h_S1024x1536 : 0 < S1024x1536.numel
  inb_S1536x144_S1536x144_0_0 : ∀ a, (![0, 0] : Fin 2 → Nat) a + S1536x144.size a ≤ S1536x144.size a
  h_S1536x144 : 0 < S1536x144.numel
  shapeCasts_S1536x144_S1536x144 : S1536x144.ShapeCasts S1536x144
  inb_S144_S144_0 : ∀ a, (![0] : Fin 1 → Nat) a + S144.size a ≤ S144.size a
  h_S144 : 0 < S144.numel
  shapeCasts_S144_S144 : S144.ShapeCasts S144
  shapeCasts_S144_S1x144 : S144.ShapeCasts S1x144
  broadcasts_S1x144_S1024x144 : S1x144.Broadcasts S1024x144
  slices_S1024x144_o0_0_S1024x128 : S1024x144.Slices ![0, 0] S1024x128
  slices_S1024x144_o0_128_S1024x16 : S1024x144.Slices ![0, 128] S1024x16
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x8_d1_w32 : S1024x8.Iotas .tc 32 [1]
  broadcasts_S1024x1_S1024x8 : S1024x1.Broadcasts S1024x8
  natLt_1_32 : 1 < 32
  slices_S1024x8_o0_0_S1024x1 : S1024x8.Slices ![0, 0] S1024x1
  slices_S1024x128_o0_0_S1024x16 : S1024x128.Slices ![0, 0] S1024x16
  broadcasts_S1024x1_S1024x16 : S1024x1.Broadcasts S1024x16
  slices_S1024x8_o0_1_S1024x1 : S1024x8.Slices ![0, 1] S1024x1
  slices_S1024x128_o0_16_S1024x16 : S1024x128.Slices ![0, 16] S1024x16
  slices_S1024x8_o0_2_S1024x1 : S1024x8.Slices ![0, 2] S1024x1
  slices_S1024x128_o0_32_S1024x16 : S1024x128.Slices ![0, 32] S1024x16
  slices_S1024x8_o0_3_S1024x1 : S1024x8.Slices ![0, 3] S1024x1
  slices_S1024x128_o0_48_S1024x16 : S1024x128.Slices ![0, 48] S1024x16
  slices_S1024x8_o0_4_S1024x1 : S1024x8.Slices ![0, 4] S1024x1
  slices_S1024x128_o0_64_S1024x16 : S1024x128.Slices ![0, 64] S1024x16
  slices_S1024x8_o0_5_S1024x1 : S1024x8.Slices ![0, 5] S1024x1
  slices_S1024x128_o0_80_S1024x16 : S1024x128.Slices ![0, 80] S1024x16
  slices_S1024x8_o0_6_S1024x1 : S1024x8.Slices ![0, 6] S1024x1
  slices_S1024x128_o0_96_S1024x16 : S1024x128.Slices ![0, 96] S1024x16
  slices_S1024x8_o0_7_S1024x1 : S1024x8.Slices ![0, 7] S1024x1
  slices_S1024x128_o0_112_S1024x16 : S1024x128.Slices ![0, 112] S1024x16
  slices_S1024x16_o0_0_S1024x15 : S1024x16.Slices ![0, 0] S1024x15
  slices_S1024x16_o0_15_S1024x1 : S1024x16.Slices ![0, 15] S1024x1
  concatenates_S1024x15_S1024x15_S1024x30_d1 : Shape.Concatenates [S1024x15, S1024x15] S1024x30 1
  inb_S30x512_S30x512_0_0 : ∀ a, (![0, 0] : Fin 2 → Nat) a + S30x512.size a ≤ S30x512.size a
  h_S30x512 : 0 < S30x512.numel
  shapeCasts_S30x512_S30x512 : S30x512.ShapeCasts S30x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  slices_S1024x512_o0_0_S1024x64 : S1024x512.Slices ![0, 0] S1024x64
  broadcasts_S1024x1_S1024x64 : S1024x1.Broadcasts S1024x64
  slices_S1024x512_o0_64_S1024x64 : S1024x512.Slices ![0, 64] S1024x64
  slices_S1024x512_o0_128_S1024x64 : S1024x512.Slices ![0, 128] S1024x64
  slices_S1024x512_o0_192_S1024x64 : S1024x512.Slices ![0, 192] S1024x64
  slices_S1024x512_o0_256_S1024x64 : S1024x512.Slices ![0, 256] S1024x64
  slices_S1024x512_o0_320_S1024x64 : S1024x512.Slices ![0, 320] S1024x64
  slices_S1024x512_o0_384_S1024x64 : S1024x512.Slices ![0, 384] S1024x64
  slices_S1024x512_o0_448_S1024x64 : S1024x512.Slices ![0, 448] S1024x64
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S8_S8_0 : ∀ a, (![0] : Fin 1 → Nat) a + S8.size a ≤ S8.size a
  h_S8 : 0 < S8.numel
  shapeCasts_S8_S1x8 : S8.ShapeCasts S1x8
  broadcasts_S1x8_S1024x8 : S1x8.Broadcasts S1024x8
  reduces_S1024x8_S1024 : S1024x8.Reduces [1] S1024
  shapeCasts_S1024_S1024x1 : S1024.ShapeCasts S1024x1
  dot_S1024x1536_S1536x144_S1024x144_1_0_0_1_n_n_wf : DotDims.WF S1024x1536 S1536x144 S1024x144 [1] [0] [0] [1] [] []
  dot_S1024x30_S30x512_S1024x512_1_0_0_1_n_n_wf : DotDims.WF S1024x30 S30x512 S1024x512 [1] [0] [0] [1] [] []
  dot_S1024x64_S64x8_S1024x8_1_0_0_1_n_n_wf : DotDims.WF S1024x64 S64x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1536.size a ≤ S16384x1536.size a
  hwx0_0 : ∀ i : grid0.Coords, EltTy.bits .f32 = 32 ∨ (Rect.block (s := S16384x1536) S1024x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .i32 = 32 ∨ (Rect.block (s := S16384x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x144.size a ≤ S1536x144.size a
  hwx0_2 : ∀ i : grid0.Coords, EltTy.bits .bf16 = 32 ∨ (Rect.block (s := S1536x144) S1536x144.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S144.size a ≤ S144.size a
  hwx0_3 : ∀ i : grid0.Coords, EltTy.bits .f32 = 32 ∨ (Rect.block (s := S144) S144.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S30x512.size a ≤ S30x512.size a
  hwx0_4 : ∀ i : grid0.Coords, EltTy.bits .bf16 = 32 ∨ (Rect.block (s := S30x512) S30x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x8.size a ≤ S64x8.size a
  hwx0_6 : ∀ i : grid0.Coords, EltTy.bits .bf16 = 32 ∨ (Rect.block (s := S64x8) S64x8.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S16384x1.size a
  hwx0_8 : ∀ i : grid0.Coords, EltTy.bits .f32 = 32 ∨ (Rect.block (s := S16384x1) S1024x1.size (cc0_transform_8 i) (hinb0_8 i)).WholeWords (EltTy.packing .f32)

variable [Facts₀]

def dot_S1024x1536_S1536x144_S1024x144_1_0_0_1_n_n : DotDims S1024x1536 S1536x144 S1024x144 where
  lhsContracting := [1]
  rhsContracting := [0]
  lhsNonContracting := [0]
  rhsNonContracting := [1]
  lhsBatch := []
  rhsBatch := []
  wf := dot_S1024x1536_S1536x144_S1024x144_1_0_0_1_n_n_wf
def dot_S1024x30_S30x512_S1024x512_1_0_0_1_n_n : DotDims S1024x30 S30x512 S1024x512 where
  lhsContracting := [1]
  rhsContracting := [0]
  lhsNonContracting := [0]
  rhsNonContracting := [1]
  lhsBatch := []
  rhsBatch := []
  wf := dot_S1024x30_S30x512_S1024x512_1_0_0_1_n_n_wf
def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf

abbrev win0_0 : Pipeline.Window sig grid0 :=
  Pipeline.Window.ofSpec (Memref.whole main_arg0) S1024x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1536x144.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S144.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S30x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S64x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1024x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1536 : Shape := ⟨2, ![16384, 1536]⟩
abbrev S16384 : Shape := ⟨1, ![16384]⟩
abbrev S128x1536 : Shape := ⟨2, ![128, 1536]⟩
abbrev S128 : Shape := ⟨1, ![128]⟩
abbrev S16x1536 : Shape := ⟨2, ![16, 1536]⟩
abbrev S16 : Shape := ⟨1, ![16]⟩
abbrev S512x30 : Shape := ⟨2, ![512, 30]⟩
abbrev S512 : Shape := ⟨1, ![512]⟩
abbrev S8x64 : Shape := ⟨2, ![8, 64]⟩
abbrev S8 : Shape := ⟨1, ![8]⟩
abbrev S16384x1x1 : Shape := ⟨3, ![16384, 1, 1]⟩
abbrev S1536x128 : Shape := ⟨2, ![1536, 128]⟩
abbrev S16384x128 : Shape := ⟨2, ![16384, 128]⟩
abbrev S1x128 : Shape := ⟨2, ![1, 128]⟩
abbrev S16384x8x16 : Shape := ⟨3, ![16384, 8, 16]⟩
abbrev S1536x16 : Shape := ⟨2, ![1536, 16]⟩
abbrev S16384x16 : Shape := ⟨2, ![16384, 16]⟩
abbrev S1x16 : Shape := ⟨2, ![1, 16]⟩
abbrev S_ : Shape := ⟨0, ![]⟩
abbrev S1 : Shape := ⟨1, ![1]⟩
abbrev S1x1x1 : Shape := ⟨3, ![1, 1, 1]⟩
abbrev S16384x1 : Shape := ⟨2, ![16384, 1]⟩
abbrev S16384x1x16 : Shape := ⟨3, ![16384, 1, 16]⟩
abbrev S16384x15 : Shape := ⟨2, ![16384, 15]⟩
abbrev S16384x30 : Shape := ⟨2, ![16384, 30]⟩
abbrev S30x512 : Shape := ⟨2, ![30, 512]⟩
abbrev S16384x512 : Shape := ⟨2, ![16384, 512]⟩
abbrev S1x512 : Shape := ⟨2, ![1, 512]⟩
abbrev S16384x8x64 : Shape := ⟨3, ![16384, 8, 64]⟩
abbrev S16384x1x64 : Shape := ⟨3, ![16384, 1, 64]⟩
abbrev S16384x64 : Shape := ⟨2, ![16384, 64]⟩
abbrev S64x8 : Shape := ⟨2, ![64, 8]⟩
abbrev S16384x8 : Shape := ⟨2, ![16384, 8]⟩
abbrev S1x8 : Shape := ⟨2, ![1, 8]⟩
abbrev S16384x8x1 : Shape := ⟨3, ![16384, 8, 1]⟩

abbrev nBuf : Space → Nat
  | .hbm => 131
  | .vmem => 0
  | .smem => 0
  | _ => 0

abbrev hbmTy0_0 (i : Nat) : BufTy := match i % 128 with
  | 0 => ⟨S16384x1536, .f32⟩
  | 1 => ⟨S16384, .i32⟩
  | 2 => ⟨S128x1536, .f32⟩
  | 3 => ⟨S128, .f32⟩
  | 4 => ⟨S16x1536, .f32⟩
  | 5 => ⟨S16, .f32⟩
  | 6 => ⟨S512x30, .f32⟩
  | 7 => ⟨S512, .f32⟩
  | 8 => ⟨S8x64, .f32⟩
  | 9 => ⟨S8, .f32⟩
  | 10 => ⟨S16384x1x1, .i32⟩
  | 11 => ⟨S1536x128, .f32⟩
  | 12 => ⟨S16384x128, .f32⟩
  | 13 => ⟨S1x128, .f32⟩
  | 14 => ⟨S16384x128, .f32⟩
  | 15 => ⟨S16384x128, .f32⟩
  | 16 => ⟨S16384x8x16, .f32⟩
  | 17 => ⟨S1536x16, .f32⟩
  | 18 => ⟨S16384x16, .f32⟩
  | 19 => ⟨S1x16, .f32⟩
  | 20 => ⟨S16384x16, .f32⟩
  | 21 => ⟨S16384x16, .f32⟩
  | 22 => ⟨S_, .i32⟩
  | 23 => ⟨S16384x1x1, .i32⟩
  | 24 => ⟨S16384x1x1, .i1⟩
  | 25 => ⟨S_, .i32⟩
  | 26 => ⟨S16384x1x1, .i32⟩
  | 27 => ⟨S16384x1x1, .i32⟩
  | 28 => ⟨S16384x1x1, .i32⟩
  | 29 => ⟨S1, .i32⟩
  | 30 => ⟨S_, .i32⟩
  | 31 => ⟨S16384x1x1, .i32⟩
  | 32 => ⟨S16384x1x1, .i1⟩
  | 33 => ⟨S1x1x1, .i32⟩
  | 34 => ⟨S16384x1x1, .i32⟩
  | 35 => ⟨S16384x1x1, .i1⟩
  | 36 => ⟨S16384x1x1, .i1⟩
  | 37 => ⟨S_, .i1⟩
  | 38 => ⟨S16384x1, .i1⟩
  | 39 => ⟨S16384x1x16, .f32⟩
  | 40 => ⟨S16384x1x16, .i1⟩
  | 41 => ⟨S_, .f32⟩
  | 42 => ⟨S16384x1x16, .f32⟩
  | 43 => ⟨S16384x1x16, .f32⟩
  | 44 => ⟨S16384x16, .f32⟩
  | 45 => ⟨S16384x15, .f32⟩
  | 46 => ⟨S16384x1, .f32⟩
  | 47 => ⟨S16384x15, .f32⟩
  | 48 => ⟨S16384x1, .f32⟩
  | 49 => ⟨S16384x15, .f32⟩
  | 50 => ⟨S16384x15, .f32⟩
  | 51 => ⟨S_, .f32⟩
  | 52 => ⟨S16384x15, .f32⟩
  | 53 => ⟨S16384x15, .f32⟩
  | 54 => ⟨S16384x30, .f32⟩
  | 55 => ⟨S_, .f32⟩
  | 56 => ⟨S_, .f32⟩
  | 57 => ⟨S_, .f32⟩
  | 58 => ⟨S16384x30, .f32⟩
  | 59 => ⟨S16384x30, .f32⟩
  | 60 => ⟨S_, .f32⟩
  | 61 => ⟨S16384x30, .f32⟩
  | 62 => ⟨S16384x30, .f32⟩
  | 63 => ⟨S30x512, .f32⟩
  | 64 => ⟨S16384x512, .f32⟩
  | 65 => ⟨S1x512, .f32⟩
  | 66 => ⟨S16384x512, .f32⟩
  | 67 => ⟨S16384x512, .f32⟩
  | 68 => ⟨S16384x8x64, .f32⟩
  | 69 => ⟨S_, .i32⟩
  | 70 => ⟨S16384x1x1, .i32⟩
  | 71 => ⟨S16384x1x1, .i1⟩
  | 72 => ⟨S_, .i32⟩
  | 73 => ⟨S16384x1x1, .i32⟩
  | 74 => ⟨S16384x1x1, .i32⟩
  | 75 => ⟨S16384x1x1, .i32⟩
  | 76 => ⟨S1, .i32⟩
  | 77 => ⟨S_, .i32⟩
  | 78 => ⟨S16384x1x1, .i32⟩
  | 79 => ⟨S16384x1x1, .i1⟩
  | 80 => ⟨S1x1x1, .i32⟩
  | 81 => ⟨S16384x1x1, .i32⟩
  | 82 => ⟨S16384x1x1, .i1⟩
  | 83 => ⟨S16384x1x1, .i1⟩
  | 84 => ⟨S_, .i1⟩
  | 85 => ⟨S16384x1, .i1⟩
  | 86 => ⟨S16384x1x64, .f32⟩
  | 87 => ⟨S16384x1x64, .i1⟩
  | 88 => ⟨S_, .f32⟩
  | 89 => ⟨S16384x1x64, .f32⟩
  | 90 => ⟨S16384x1x64, .f32⟩
  | 91 => ⟨S16384x64, .f32⟩
  | 92 => ⟨S_, .f32⟩
  | 93 => ⟨S_, .f32⟩
  | 94 => ⟨S_, .f32⟩
  | 95 => ⟨S16384x64, .f32⟩
  | 96 => ⟨S16384x64, .f32⟩
  | 97 => ⟨S_, .f32⟩
  | 98 => ⟨S16384x64, .f32⟩
  | 99 => ⟨S16384x64, .f32⟩
  | 100 => ⟨S64x8, .f32⟩
  | 101 => ⟨S16384x8, .f32⟩
  | 102 => ⟨S1x8, .f32⟩
  | 103 => ⟨S16384x8, .f32⟩
  | 104 => ⟨S16384x8, .f32⟩
  | 105 => ⟨S16384x8x1, .f32⟩
  | 106 => ⟨S_, .i32⟩
  | 107 => ⟨S16384x1x1, .i32⟩
  | 108 => ⟨S16384x1x1, .i1⟩
  | 109 => ⟨S_, .i32⟩
  | 110 => ⟨S16384x1x1, .i32⟩
  | 111 => ⟨S16384x1x1, .i32⟩
  | 112 => ⟨S16384x1x1, .i32⟩
  | 113 => ⟨S1, .i32⟩
  | 114 => ⟨S_, .i32⟩
  | 115 => ⟨S16384x1x1, .i32⟩
  | 116 => ⟨S16384x1x1, .i1⟩
  | 117 => ⟨S1x1x1, .i32⟩
  | 118 => ⟨S16384x1x1, .i32⟩
  | 119 => ⟨S16384x1x1, .i1⟩
  | 120 => ⟨S16384x1x1, .i1⟩
  | 121 => ⟨S_, .i1⟩
  | 122 => ⟨S16384x1, .i1⟩
  | 123 => ⟨S16384x1x1, .f32⟩
  | 124 => ⟨S16384x1x1, .i1⟩
  | 125 => ⟨S_, .f32⟩
  | 126 => ⟨S16384x1x1, .f32⟩
  | 127 => ⟨S16384x1x1, .f32⟩
  | _ => ⟨S16384x1536, .f32⟩

abbrev hbmTy0_1 (i : Nat) : BufTy := match i % 128 with
  | 0 => ⟨S16384x1, .f32⟩
  | 1 => ⟨S16384x1, .f32⟩
  | 2 => ⟨S16384x1, .f32⟩
  | _ => ⟨S16384x1536, .f32⟩

abbrev hbmTy (i : Nat) : BufTy := match i / 128 with
  | 0 => hbmTy0_0 i
  | 1 => hbmTy0_1 i
  | _ => ⟨S16384x1536, .f32⟩

abbrev bufTy : (tb : Table) → Fin (tcTables nBuf tb) → BufTy
  | .hbm, ⟨i, _⟩ => hbmTy i
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_c_2 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_c_3 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_0 : Ref sig .tc := ⟨.hbm, 55, rfl⟩
abbrev main_cst_1 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_c_1 : Ref sig .tc := ⟨.hbm, 76, rfl⟩
abbrev main_call2_c_2 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_c_3 : Ref sig .tc := ⟨.hbm, 84, rfl⟩
abbrev main_call2_v11 : Ref sig .tc := ⟨.hbm, 85, rfl⟩
abbrev main_call2_v12 : Ref sig .tc := ⟨.hbm, 86, rfl⟩
abbrev main_call2_v13 : Ref sig .tc := ⟨.hbm, 87, rfl⟩
abbrev main_call2_cst : Ref sig .tc := ⟨.hbm, 88, rfl⟩
abbrev main_call2_v14 : Ref sig .tc := ⟨.hbm, 89, rfl⟩
abbrev main_v30 : Ref sig .tc := ⟨.hbm, 90, rfl⟩
abbrev main_v31 : Ref sig .tc := ⟨.hbm, 91, rfl⟩
abbrev main_cst_2 : Ref sig .tc := ⟨.hbm, 92, rfl⟩
abbrev main_cst_3 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_call4_c : Ref sig .tc := ⟨.hbm, 106, rfl⟩
abbrev main_call4_v0 : Ref sig .tc := ⟨.hbm, 107, rfl⟩
abbrev main_call4_v1 : Ref sig .tc := ⟨.hbm, 108, rfl⟩
abbrev main_call4_c_0 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_c_1 : Ref sig .tc := ⟨.hbm, 113, rfl⟩
abbrev main_call4_c_2 : Ref sig .tc := ⟨.hbm, 114, rfl⟩
abbrev main_call4_v5 : Ref sig .tc := ⟨.hbm, 115, rfl⟩
abbrev main_call4_v6 : Ref sig .tc := ⟨.hbm, 116, rfl⟩
abbrev main_call4_v7 : Ref sig .tc := ⟨.hbm, 117, rfl⟩
abbrev main_call4_v8 : Ref sig .tc := ⟨.hbm, 118, rfl⟩
abbrev main_call4_v9 : Ref sig .tc := ⟨.hbm, 119, rfl⟩
abbrev main_call4_v10 : Ref sig .tc := ⟨.hbm, 120, rfl⟩
abbrev main_call4_c_3 : Ref sig .tc := ⟨.hbm, 121, rfl⟩
abbrev main_call4_v11 : Ref sig .tc := ⟨.hbm, 122, rfl⟩
abbrev main_call4_v12 : Ref sig .tc := ⟨.hbm, 123, rfl⟩
abbrev main_call4_v13 : Ref sig .tc := ⟨.hbm, 124, rfl⟩
abbrev main_call4_cst : Ref sig .tc := ⟨.hbm, 125, rfl⟩
abbrev main_call4_v14 : Ref sig .tc := ⟨.hbm, 126, rfl⟩
abbrev main_v39 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩

abbrev nD : Nat := 1
abbrev τ : Topo := Topo.v7x

variable {F : FTy → Type} [FloatOps F]

class Facts₀ : Prop where
  bcast_S16384_S16384x1x1_0 : S16384.BroadcastsInDim S16384x1x1 (![0] : Fin 1 → Fin S16384x1x1.rank)
  transposes_S128x1536_S1536x128_1_0 : S128x1536.Transposes [1, 0] S1536x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  shapeCasts_S16384x128_S16384x8x16 : S16384x128.ShapeCasts S16384x8x16
  transposes_S16x1536_S1536x16_1_0 : S16x1536.Transposes [1, 0] S1536x16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  bcast_S16384x1_S16384x1x16_0_1 : S16384x1.BroadcastsInDim S16384x1x16 (![0, 1] : Fin 2 → Fin S16384x1x16.rank)
  bcast_S_S16384x1x16 : S_.BroadcastsInDim S16384x1x16 (![] : Fin 0 → Fin S16384x1x16.rank)
  shapeCasts_S16384x1x16_S16384x16 : S16384x1x16.ShapeCasts S16384x16
  slices_S16384x16_S16384x15_0_0 : S16384x16.Slices ![0, 0] S16384x15
  slices_S16384x16_S16384x1_0_15 : S16384x16.Slices ![0, 15] S16384x1
  bcast_S_S16384x15 : S_.BroadcastsInDim S16384x15 (![] : Fin 0 → Fin S16384x15.rank)
  concatenates_S16384x15_S16384x15_S16384x30_d1 : Shape.Concatenates [S16384x15, S16384x15] S16384x30 1
  bcast_S_S16384x30 : S_.BroadcastsInDim S16384x30 (![] : Fin 0 → Fin S16384x30.rank)
  transposes_S512x30_S30x512_1_0 : S512x30.Transposes [1, 0] S30x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  shapeCasts_S16384x512_S16384x8x64 : S16384x512.ShapeCasts S16384x8x64
  bcast_S16384x1_S16384x1x64_0_1 : S16384x1.BroadcastsInDim S16384x1x64 (![0, 1] : Fin 2 → Fin S16384x1x64.rank)
  bcast_S_S16384x1x64 : S_.BroadcastsInDim S16384x1x64 (![] : Fin 0 → Fin S16384x1x64.rank)
  shapeCasts_S16384x1x64_S16384x64 : S16384x1x64.ShapeCasts S16384x64
  bcast_S_S16384x64 : S_.BroadcastsInDim S16384x64 (![] : Fin 0 → Fin S16384x64.rank)
  transposes_S8x64_S64x8_1_0 : S8x64.Transposes [1, 0] S64x8
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  shapeCasts_S16384x8_S16384x8x1 : S16384x8.ShapeCasts S16384x8x1
  bcast_S16384x1_S16384x1x1_0_1 : S16384x1.BroadcastsInDim S16384x1x1 (![0, 1] : Fin 2 → Fin S16384x1x1.rank)
  shapeCasts_S16384x1x1_S16384x1 : S16384x1x1.ShapeCasts S16384x1
  dot_S16384x1536_S1536x128_S16384x128_1_0_0_1_n_n_wf : DotDims.WF S16384x1536 S1536x128 S16384x128 [1] [0] [0] [1] [] []
  dot_S16384x1536_S1536x16_S16384x16_1_0_0_1_n_n_wf : DotDims.WF S16384x1536 S1536x16 S16384x16 [1] [0] [0] [1] [] []
  gather_S16384x8x16_S16384x1x1_S16384x1x16_2_1_0_0_1_2_1116_wf : GatherDims.WF S16384x8x16 S16384x1x1 S16384x1x16 [2] [1] [0] [1] [0] 2 ![1, 1, 16]
  dot_S16384x30_S30x512_S16384x512_1_0_0_1_n_n_wf : DotDims.WF S16384x30 S30x512 S16384x512 [1] [0] [0] [1] [] []
  gather_S16384x8x64_S16384x1x1_S16384x1x64_2_1_0_0_1_2_1164_wf : GatherDims.WF S16384x8x64 S16384x1x1 S16384x1x64 [2] [1] [0] [1] [0] 2 ![1, 1, 64]
  dot_S16384x64_S64x8_S16384x8_1_0_0_1_n_n_wf : DotDims.WF S16384x64 S64x8 S16384x8 [1] [0] [0] [1] [] []
  gather_S16384x8x1_S16384x1x1_S16384x1x1_2_1_0_0_1_2_111_wf : GatherDims.WF S16384x8x1 S16384x1x1 S16384x1x1 [2] [1] [0] [1] [0] 2 ![1, 1, 1]

variable [Facts₀]

def dot_S16384x1536_S1536x128_S16384x128_1_0_0_1_n_n : DotDims S16384x1536 S1536x128 S16384x128 where
  lhsContracting := [1]
  rhsContracting := [0]
  lhsNonContracting := [0]
  rhsNonContracting := [1]
  lhsBatch := []
  rhsBatch := []
  wf := dot_S16384x1536_S1536x128_S16384x128_1_0_0_1_n_n_wf
def dot_S16384x1536_S1536x16_S16384x16_1_0_0_1_n_n : DotDims S16384x1536 S1536x16 S16384x16 where
  lhsContracting := [1]
  rhsContracting := [0]
  lhsNonContracting := [0]
  rhsNonContracting := [1]
  lhsBatch := []
  rhsBatch := []
  wf := dot_S16384x1536_S1536x16_S16384x16_1_0_0_1_n_n_wf
def gather_S16384x8x16_S16384x1x1_S16384x1x16_2_1_0_0_1_2_1116 : GatherDims S16384x8x16 S16384x1x1 S16384x1x16 where
  offsetDims := [2]
  collapsedSliceDims := [1]
  operandBatchingDims := [0]
  startIndicesBatchingDims := [0]
  startIndexMap := [1]
  indexVectorDim := 2
  sliceSizes := ![1, 1, 16]
  wf := gather_S16384x8x16_S16384x1x1_S16384x1x16_2_1_0_0_1_2_1116_wf
def dot_S16384x30_S30x512_S16384x512_1_0_0_1_n_n : DotDims S16384x30 S30x512 S16384x512 where
  lhsContracting := [1]
  rhsContracting := [0]
  lhsNonContracting := [0]
  rhsNonContracting := [1]
  lhsBatch := []
  rhsBatch := []
  wf := dot_S16384x30_S30x512_S16384x512_1_0_0_1_n_n_wf
def gather_S16384x8x64_S16384x1x1_S16384x1x64_2_1_0_0_1_2_1164 : GatherDims S16384x8x64 S16384x1x1 S16384x1x64 where
  offsetDims := [2]
  collapsedSliceDims := [1]
  operandBatchingDims := [0]
  startIndicesBatchingDims := [0]
  startIndexMap := [1]
  indexVectorDim := 2
  sliceSizes := ![1, 1, 64]
  wf := gather_S16384x8x64_S16384x1x1_S16384x1x64_2_1_0_0_1_2_1164_wf
def dot_S16384x64_S64x8_S16384x8_1_0_0_1_n_n : DotDims S16384x64 S64x8 S16384x8 where
  lhsContracting := [1]
  rhsContracting := [0]
  lhsNonContracting := [0]
  rhsNonContracting := [1]
  lhsBatch := []
  rhsBatch := []
  wf := dot_S16384x64_S64x8_S16384x8_1_0_0_1_n_n_wf
def gather_S16384x8x1_S16384x1x1_S16384x1x1_2_1_0_0_1_2_111 : GatherDims S16384x8x1 S16384x1x1 S16384x1x1 where
  offsetDims := [2]
  collapsedSliceDims := [1]
  operandBatchingDims := [0]
  startIndicesBatchingDims := [0]
  startIndexMap := [1]
  indexVectorDim := 2
  sliceSizes := ![1, 1, 1]
  wf := gather_S16384x8x1_S16384x1x1_S16384x1x1_2_1_0_0_1_2_111_wf

class Facts : Prop extends Facts₀ where

variable [Facts]
-- ==== Proof.Spec.lean ====
/-
  The value both programs compute, written once, for ONE row of the batch.

  A row `xr` of the input (1536 numbers) and a stack index `c` (one of 8) go through three affine layers. The first has
  8 stacks of 16 outputs each (the 128 rows of `w1`, stack `c` being rows 16c … 16c+15) beside a shared block of 16
  (`wf`); the selected stack and the shared block are added on their first 15 outputs, the sum `s` and its square
  times 127/128 are clipped into [0, 1] and laid side by side (square first) as 30 hidden values; the second layer has 8
  stacks of 64 (the 512 rows of `w2`), the selected one clipped into [0, 1]; the third has 8 outputs (`wo`), of which the
  selected one is kept; the result adds to it the 16th output of the shared block and of the selected first stack.

  The kernel selects a stack by multiplying with a 0/1 indicator and summing over the 8 stacks; the reference gathers.
  `select_chain` and `select_sum` are the two forms of "the indicator-weighted sum is the selected entry" the kernel uses;
  neither needs a finite entry: 0 · a = 0 and 0 + a = a hold for every extended real.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Moe

open Idealize.ShloMosaic Idealize.ShloMosaic.ValueIdx

/-- The weights and biases a row meets, as functions of their coordinates (output coordinate first, as the arguments are stored). -/
structure Params where
  w1 : Fin 128 → Fin 1536 → EReal
  b1 : Fin 128 → EReal
  wf : Fin 16 → Fin 1536 → EReal
  bf : Fin 16 → EReal
  w2 : Fin 512 → Fin 30 → EReal
  b2 : Fin 512 → EReal
  wo : Fin 8 → Fin 64 → EReal
  bo : Fin 8 → EReal

section Row
variable (P : Params) (xr : Fin 1536 → EReal) (c : Fin 8)

/-- Output `j` of all first-layer stacks: the row times row `j` of `w1`, plus its bias. -/
def lin1 (j : Fin 128) : EReal := (∑ k : Fin 1536, xr k * P.w1 j k) + P.b1 j
/-- Output `q` of the shared first-layer block. -/
def linf (q : Fin 16) : EReal := (∑ k : Fin 1536, xr k * P.wf q k) + P.bf q
/-- Output `q` of the selected first-layer stack. -/
def pick1 (q : Fin 16) : EReal := lin1 P xr ⟨c.val * 16 + q.val, by omega⟩
/-- The selected stack plus the shared block, on the first 15 outputs. -/
def mix (p : Fin 15) : EReal := pick1 P xr c ⟨p.val, by omega⟩ + linf P xr ⟨p.val, by omega⟩
/-- Clipping into [0, 1], the bounds as the binary32 words of 0 and 1. -/
def clip01 (v : EReal) : EReal := min (Ideal.ofBits .f32 0x3F800000#32) (max (Ideal.ofBits .f32 0x00000000#32) v)
/-- The 30 hidden values: the clipped squares times 127/128 (binary32 word 0x3F7E0000), then the clipped sums. -/
def hid (p : Fin 30) : EReal :=
  clip01 (if h : p.val < 15 then mix P xr c ⟨p.val, h⟩ * mix P xr c ⟨p.val, h⟩ * Ideal.ofBits .f32 0x3F7E0000#32
    else mix P xr c ⟨p.val - 15, by omega⟩)
/-- Output `j` of all second-layer stacks. -/
def lin2 (j : Fin 512) : EReal := (∑ p : Fin 30, hid P xr c p * P.w2 j p) + P.b2 j
/-- Output `q` of the selected second-layer stack, clipped. -/
def pick2 (q : Fin 64) : EReal := clip01 (lin2 P xr c ⟨c.val * 64 + q.val, by omega⟩)
/-- Output `d` of the third layer. -/
def lin3 (d : Fin 8) : EReal := (∑ q : Fin 64, pick2 P xr c q * P.wo d q) + P.bo d
/-- The row's result. -/
def rowOut : EReal := lin3 P xr c c + linf P xr ⟨15, by omega⟩ + pick1 P xr c ⟨15, by omega⟩

end Row

/-! ## Selecting by an indicator -/

/-- The running sum the kernel writes out stack by stack, from a zero: only the selected term survives. -/
theorem select_chain (c : Fin 8) (oh a : Fin 8 → EReal) (z : EReal) (hz : z = 0) (hoh : ∀ d, oh d = if c = d then 1 else 0) :
    z + oh 0 * a 0 + oh 1 * a 1 + oh 2 * a 2 + oh 3 * a 3 + oh 4 * a 4 + oh 5 * a 5 + oh 6 * a 6 + oh 7 * a 7 = a c := by
  subst hz
  fin_cases c <;> simp [hoh]

/-- The same as one sum over the 8 stacks. -/
theorem select_sum (c : Fin 8) (oh a : Fin 8 → EReal) (hoh : ∀ d, oh d = if c = d then 1 else 0) :
    ∑ d : Fin 8, oh d * a d = a c := by
  simp only [hoh, ite_mul, one_mul, zero_mul, Finset.sum_ite_eq, Finset.mem_univ, if_true]

/-! ## The stack a word selects -/

/-- The stack index a 32-bit word names: read signed and clamped into 0 … 7. -/
def stackOf (w : BitVec 32) : Fin 8 := ⟨min w.toInt.toNat 7, by omega⟩

/-- Every entry of the index vector names a stack: as a signed number it lies in 0 … 7. -/
def InRange (idx : IVec ⟨1, ![16384]⟩ 32) : Prop :=
  ∀ n : Fin 16384, 0 ≤ (idx (ix1 n)).toInt ∧ (idx (ix1 n)).toInt < 8

theorem stackOf_val {w : BitVec 32} (h0 : 0 ≤ w.toInt) (h8 : w.toInt < 8) : ((stackOf w).val : Int) = w.toInt := by
  show ((min w.toInt.toNat 7 : Nat) : Int) = w.toInt
  omega

/-- An in-range word is the word of its stack index. -/
theorem eq_ofNat_stackOf {w : BitVec 32} (h0 : 0 ≤ w.toInt) (h8 : w.toInt < 8) : w = BitVec.ofNat 32 (stackOf w).val := by
  apply BitVec.eq_of_toInt_eq
  have h := stackOf_val h0 h8
  have hlt : (stackOf w).val < 8 := (stackOf w).isLt
  rw [StableHlo.Predicate.toInt_ofNat_small _ (by omega)]
  omega

/-! ## The whole result array -/

/-- The argument arrays read as the row's weights. -/
def paramsOf (W1 : FVec Ideal ⟨2, ![128, 1536]⟩ .f32) (b1 : FVec Ideal ⟨1, ![128]⟩ .f32) (Wf : FVec Ideal ⟨2, ![16, 1536]⟩ .f32)
    (bf : FVec Ideal ⟨1, ![16]⟩ .f32) (W2 : FVec Ideal ⟨2, ![512, 30]⟩ .f32) (b2 : FVec Ideal ⟨1, ![512]⟩ .f32)
    (Wo : FVec Ideal ⟨2, ![8, 64]⟩ .f32) (bo : FVec Ideal ⟨1, ![8]⟩ .f32) : Params where
  w1 j k := W1 (ix2 j k)
  b1 j := b1 (ix1 j)
  wf q k := Wf (ix2 q k)
  bf q := bf (ix1 q)
  w2 j p := W2 (ix2 j p)
  b2 j := b2 (ix1 j)
  wo d q := Wo (ix2 d q)
  bo d := bo (ix1 d)

/-- The result array as one function of the ten argument arrays: row `n` is the row's result at the stack its index names. -/
def G (x : FVec Ideal ⟨2, ![16384, 1536]⟩ .f32) (idx : IVec ⟨1, ![16384]⟩ 32) (W1 : FVec Ideal ⟨2, ![128, 1536]⟩ .f32)
    (b1 : FVec Ideal ⟨1, ![128]⟩ .f32) (Wf : FVec Ideal ⟨2, ![16, 1536]⟩ .f32) (bf : FVec Ideal ⟨1, ![16]⟩ .f32)
    (W2 : FVec Ideal ⟨2, ![512, 30]⟩ .f32) (b2 : FVec Ideal ⟨1, ![512]⟩ .f32) (Wo : FVec Ideal ⟨2, ![8, 64]⟩ .f32)
    (bo : FVec Ideal ⟨1, ![8]⟩ .f32) : FVec Ideal ⟨2, ![16384, 1]⟩ .f32 :=
  fun i => rowOut (paramsOf W1 b1 Wf bf W2 b2 Wo bo) (fun k => x (ix2 ⟨(i 0).val, (i 0).isLt⟩ k))
    (stackOf (idx (ix1 ⟨(i 0).val, (i 0).isLt⟩)))

theorem G_apply (x : FVec Ideal ⟨2, ![16384, 1536]⟩ .f32) (idx : IVec ⟨1, ![16384]⟩ 32) (W1 : FVec Ideal ⟨2, ![128, 1536]⟩ .f32)
    (b1 : FVec Ideal ⟨1, ![128]⟩ .f32) (Wf : FVec Ideal ⟨2, ![16, 1536]⟩ .f32) (bf : FVec Ideal ⟨1, ![16]⟩ .f32)
    (W2 : FVec Ideal ⟨2, ![512, 30]⟩ .f32) (b2 : FVec Ideal ⟨1, ![512]⟩ .f32) (Wo : FVec Ideal ⟨2, ![8, 64]⟩ .f32)
    (bo : FVec Ideal ⟨1, ![8]⟩ .f32) (n : Fin 16384) :
    G x idx W1 b1 Wf bf W2 b2 Wo bo (ix2 n (0 : Fin 1))
      = rowOut (paramsOf W1 b1 Wf bf W2 b2 Wo bo) (fun k => x (ix2 n k)) (stackOf (idx (ix1 n))) := rfl

end Cert.Moe

end
-- ==== Proof.PreRange.lean ====
/-
  What the precondition says of the index vector: every entry, read signed, lies in 0 … 7.

  The precondition is a conjunction of "all" reductions, one per float argument (its entries finite) and two for the
  index vector (entries ≥ 0; entries < 8). Only the last two are opened here.
-/
import proofs.«431040_j52974126629260_2_alg».proof.Pre_finite_inputs
import proofs.«431040_j52974126629260_2_alg».proof.Proof.Gen.Pre_finite_inputs
import proofs.«431040_j52974126629260_2_alg».proof.Proof.Spec
import Idealize.ShloMosaic.Lib.ReduceAll
import Idealize.ShloMosaic.Lib.StableHlo.Predicate

noncomputable section

namespace Cert.Moe

open Idealize.ShloMosaic Idealize.ShloMosaic.ValueIdx Cert.Pre_finite_inputs

/-- The two element facts: a word that tests ≥ 0 and < 8, both signed, lies in 0 … 7 as a signed number. -/
theorem preRange_word {w : BitVec 32} (h0 : IntOp.cmpi .sge w 0#32 = 1#1) (h8 : IntOp.cmpi .slt w 8#32 = 1#1) :
    0 ≤ w.toInt ∧ w.toInt < 8 := by
  have e0 : (0#32 : BitVec 32).toInt = 0 := by decide
  have e8 : (8#32 : BitVec 32).toInt = 8 := by decide
  have g0 := IntOp.cmpi_sge.1 h0
  have g8 := IntOp.cmpi_slt.1 h8
  rw [e0] at g0
  rw [e8] at g8
  exact ⟨g0, g8⟩

theorem inRange_of_pre [Cert.Pre_finite_inputs.Facts] (a0 : FVec Ideal S16384x1536 .f32) (a1 : IVec S16384 32) (a2 : FVec Ideal S128x1536 .f32)
    (a3 : FVec Ideal S128 .f32) (a4 : FVec Ideal S16x1536 .f32) (a5 : FVec Ideal S16 .f32) (a6 : FVec Ideal S512x30 .f32)
    (a7 : FVec Ideal S512 .f32) (a8 : FVec Ideal S8x64 .f32) (a9 : FVec Ideal S8 .f32)
    (h : Cert.Pre_finite_inputs.fn (F := Ideal) a0 a1 a2 a3 a4 a5 a6 a7 a8 a9 = fun _ => 1#1) : InRange a1 := by
  -- the result is a scalar: it has one index
  haveI : Subsingleton S_.Idx := ⟨fun a b => funext fun d => d.elim0⟩
  have e := congrFun h ValueIdx.ix0
  dsimp only [fn, fn_part1, fn_part2, fn_part3] at e
  -- the conjunction, outermost first: (… ∧ all (a1 ≥ 0)) ∧ all (a1 < 8)
  obtain ⟨e47, e50⟩ := IntOp.andi_eq_one.1 e
  obtain ⟨-, e46⟩ := IntOp.andi_eq_one.1 e47
  intro n
  -- each "all" read at entry n; the compared array there is the constant spread over the shape, which reads the constant
  have g0 := Host.reduce_andi_all _ _ _ _ _ e46 (ix1 n)
  have g8 := Host.reduce_andi_all _ _ _ _ _ e50 (ix1 n)
  exact preRange_word g0 g8

end Cert.Moe

end
-- ==== Proof.KBodyDefs.lean ====
/-
  The kernel body's value as one term of the eight input blocks, and the blocks read as a row's weights.

  At a grid point the body sees 1024 rows of `x` (`x0`), their stack indices as a column (`x1`), and the whole weight arrays
  in the layout the program around the kernel prepared: the two first-layer weight arrays stacked along the output axis and
  stored input coordinate first (`x2`: 1536 × 144, columns 0 … 127 the eight stacks, 128 … 143 the shared block), their
  biases stacked the same way (`x3`), the second and third layers' weights input coordinate first (`x4`, `x6`) and their
  biases (`x5`, `x7`). `blockParams` reads them back output coordinate first; `payload` is the value the body stores.
-/
import proofs.«431040_j52974126629260_2_alg».proof.Proof.Gen.KernelIdeal.Skeleton
import proofs.«431040_j52974126629260_2_alg».proof.Proof.Spec

noncomputable section

namespace Cert.KernelIdeal.Body

open Cert.KernelIdeal Cert.KernelIdeal.Gen Cert.Moe Idealize.ShloMosaic Idealize.ShloMosaic.ValueIdx

/-- The blocks the body loads, read as the weights a row meets. -/
def blockParams (x2 : FVec Ideal S1536x144 .bf16) (x3 : FVec Ideal S144 .f32) (x4 : FVec Ideal S30x512 .bf16)
    (x5 : FVec Ideal S512 .f32) (x6 : FVec Ideal S64x8 .bf16) (x7 : FVec Ideal S8 .f32) : Params where
  w1 j k := x2 (ix2 k (⟨j.val, by omega⟩ : Fin 144))
  b1 j := x3 (ix1 (⟨j.val, by omega⟩ : Fin 144))
  wf q k := x2 (ix2 k (⟨128 + q.val, by omega⟩ : Fin 144))
  bf q := x3 (ix1 (⟨128 + q.val, by omega⟩ : Fin 144))
  w2 j p := x4 (ix2 p j)
  b2 j := x5 (ix1 j)
  wo d q := x6 (ix2 q d)
  bo d := x7 (ix1 d)

/-- What the body stores, from the eight blocks it loads. -/
def payload (x0 : FVec Ideal S1024x1536 .f32) (x1 : IVec S1024x1 32) (x2 : FVec Ideal S1536x144 .bf16) (x3 : FVec Ideal S144 .f32)
    (x4 : FVec Ideal S30x512 .bf16) (x5 : FVec Ideal S512 .f32) (x6 : FVec Ideal S64x8 .bf16) (x7 : FVec Ideal S8 .f32) :
    FVec Ideal S1024x1 .f32 :=
  k0_pay1 (F := Ideal) (k0_pay5 x1) (k0_pay8 (k0_pay3 x0 x2 x3) (k0_pay5 x1) (k0_pay6 x0 x2 x3 x1)) (k0_pay9 (k0_pay4 x0 x2 x3))
    (k0_pay10 (k0_pay3 x0 x2 x3) (k0_pay4 x0 x2 x3) (k0_pay5 x1) (k0_pay6 x0 x2 x3 x1) x4 x5)
    (k0_pay11 (k0_pay3 x0 x2 x3) (k0_pay4 x0 x2 x3) (k0_pay5 x1) (k0_pay6 x0 x2 x3 x1) x4 x5) x6 x7

end Cert.KernelIdeal.Body

end
-- ==== Proof.KBodyA.lean ====
/-
  The first layer inside the kernel body, read at one row.

  The body multiplies its 1024 rows of `x` by the stacked first-layer weights (1536 × 144, the eight stacks in columns
  0 … 127, the shared block in columns 128 … 143) and adds the stacked bias; entry (r, j) of the result is the sum over
  the 1536 inputs of row r times column j, plus bias j. Columns 0 … 127 are therefore the 128 outputs of the stacks and
  columns 128 … 143 the 16 outputs of the shared block. The row's stack is picked by a 0/1 indicator (the row's index
  word compared with the column number) and a running sum over the eight stacks, of which only the selected term
  survives.
-/
import proofs.«431040_j52974126629260_2_alg».proof.Proof.KBodyDefs
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Cert.Moe Idealize.ShloMosaic Idealize.ShloMosaic.ValueIdx Idealize.SL.Sem

/-! ## The first-layer product read at one entry

Where the product's index bookkeeping sends a result entry (row, column) and a summation coordinate: on the left operand
the row is the result's row and the column is the summation coordinate; on the right operand the row is the summation
coordinate and the column is the result's column. -/

theorem layer1_dot_lhs_0 (i : S1024x144.Idx) (q : dot_S1024x1536_S1536x144_S1024x144_1_0_0_1_n_n.contr.Idx) :
    (dot_S1024x1536_S1536x144_S1024x144_1_0_0_1_n_n.lhsIdx i q 0).val = (i 0).val := by
  unfold DotDims.lhsIdx
  rw [dif_neg (show ¬(0 : Fin S1024x1536.rank) ∈ dot_S1024x1536_S1536x144_S1024x144_1_0_0_1_n_n.lhsBatch by decide), dif_pos (show (0 : Fin S1024x1536.rank) ∈ dot_S1024x1536_S1536x144_S1024x144_1_0_0_1_n_n.lhsNonContracting by decide)]
  rfl
theorem layer1_dot_lhs_1 (i : S1024x144.Idx) (q : dot_S1024x1536_S1536x144_S1024x144_1_0_0_1_n_n.contr.Idx) :
    (dot_S1024x1536_S1536x144_S1024x144_1_0_0_1_n_n.lhsIdx i q 1).val = (q ⟨0, by decide⟩).val :=
  dot_S1024x1536_S1536x144_S1024x144_1_0_0_1_n_n.lhsIdx_val_of_single rfl i q
theorem layer1_dot_rhs_0 (i : S1024x144.Idx) (q : dot_S1024x1536_S1536x144_S1024x144_1_0_0_1_n_n.contr.Idx) :
    (dot_S1024x1536_S1536x144_S1024x144_1_0_0_1_n_n.rhsIdx i q 0).val = (q ⟨0, by decide⟩).val :=
  dot_S1024x1536_S1536x144_S1024x144_1_0_0_1_n_n.rhsIdx_val_of_single rfl i q
theorem layer1_dot_rhs_1 (i : S1024x144.Idx) (q : dot_S1024x1536_S1536x144_S1024x144_1_0_0_1_n_n.contr.Idx) :
    (dot_S1024x1536_S1536x144_S1024x144_1_0_0_1_n_n.rhsIdx i q 1).val = (i 1).val := by
  unfold DotDims.rhsIdx
  rw [dif_neg (show ¬(1 : Fin S1536x144.rank) ∈ dot_S1024x1536_S1536x144_S1024x144_1_0_0_1_n_n.rhsBatch by decide), dif_pos (show (1 : Fin S1536x144.rank) ∈ dot_S1024x1536_S1536x144_S1024x144_1_0_0_1_n_n.rhsNonContracting by decide)]
  rfl

/-- The first-layer product at one entry: row `r` of the block against column `j` of the stacked weights, plus the stacked bias. -/
theorem layer1_prod_apply (x0 : FVec Ideal S1024x1536 .f32) (x2 : FVec Ideal S1536x144 .bf16) (x3 : FVec Ideal S144 .f32)
    (r : Fin 1024) (j : Fin 144) :
    k0_pay2 (F := Ideal) x0 x2 x3 (ix2 r j) = (∑ k : Fin 1536, x0 (ix2 r k) * x2 (ix2 k j)) + x3 (ix1 j) := by
  unfold k0_pay2
  rw [shapeCast_self, shapeCast_self, addf_apply]
  refine congrArg₂ (· + ·) ?_ ?_
  · refine (Ideal.matmul_constant_zero_apply dot_S1024x1536_S1536x144_S1024x144_1_0_0_1_n_n none _ x2 (ix2 r j)).trans ?_
    rw [← Equiv.sum_comp (contrEquiv1 dot_S1024x1536_S1536x144_S1024x144_1_0_0_1_n_n 1536 rfl rfl).symm]
    refine Finset.sum_congr rfl fun k _ => ?_
    have hk := contrEquiv1_symm_val dot_S1024x1536_S1536x144_S1024x144_1_0_0_1_n_n 1536 rfl rfl k
    have el : dot_S1024x1536_S1536x144_S1024x144_1_0_0_1_n_n.lhsIdx (ix2 r j) ((contrEquiv1 dot_S1024x1536_S1536x144_S1024x144_1_0_0_1_n_n 1536 rfl rfl).symm k) = ix2 r k := funext fun a => Fin.ext (by
      match a with
      | ⟨0, _⟩ => exact layer1_dot_lhs_0 _ _
      | ⟨1, _⟩ => exact (layer1_dot_lhs_1 _ _).trans hk)
    have er : dot_S1024x1536_S1536x144_S1024x144_1_0_0_1_n_n.rhsIdx (ix2 r j) ((contrEquiv1 dot_S1024x1536_S1536x144_S1024x144_1_0_0_1_n_n 1536 rfl rfl).symm k) = ix2 k j := funext fun a => Fin.ext (by
      match a with
      | ⟨0, _⟩ => exact (layer1_dot_rhs_0 _ _).trans hk
      | ⟨1, _⟩ => exact layer1_dot_rhs_1 _ _)
    rw [el, er, truncf_apply]
  · refine (broadcastTo_apply _ broadcasts_S1x144_S1024x144 (ix2 r j) (ix2 (0 : Fin 1) j) (fun a => ?_)).trans ?_
    · match a with
      | ⟨0, _⟩ => rfl
      | ⟨1, _⟩ => rfl
    · refine shapeCast_apply x3 shapeCasts_S144_S1x144 (ix2 (0 : Fin 1) j) (ix1 j) ?_
      rw [Shape.rowMajor_val_one, Shape.rowMajor_val_two]
      show j.val = 0 * 144 + j.val
      omega

/-- The indicator of the row's stack: 1 in the column of the stack the row's index names, 0 elsewhere. -/
theorem onehot_apply (x1 : IVec S1024x1 32) (r : Fin 1024) (c d : Fin 8) (hc : x1 (ix2 r (0 : Fin 1)) = BitVec.ofNat 32 c.val) :
    k0_pay5 (F := Ideal) x1 (ix2 r d) = if c = d then 1 else 0 := by
  unfold k0_pay5
  rw [shapeCast_self]
  -- the index column, repeated along the eight stack columns, is the row's word in every column
  have hb : broadcastTo S1024x8 x1 broadcasts_S1024x1_S1024x8 (ix2 r d) = BitVec.ofNat 32 c.val :=
    (broadcastTo_apply x1 broadcasts_S1024x1_S1024x8 (ix2 r d) (ix2 r (0 : Fin 1)) (fun a => by
      match a with
      | ⟨0, _⟩ => rfl
      | ⟨1, _⟩ => rfl)).trans hc
  -- the column counter reads its column
  have hi : iota .tc S1024x8 32 [1] iota_S1024x8_d1_w32 (ix2 r d) = BitVec.ofNat 32 d.val :=
    iota_single_apply .tc S1024x8 32 1 iota_S1024x8_d1_w32 (ix2 r d)
  show ((((IntOp.cmpi .eq (broadcastTo S1024x8 x1 broadcasts_S1024x1_S1024x8 (ix2 r d))
    (iota .tc S1024x8 32 [1] iota_S1024x8_d1_w32 (ix2 r d))).setWidth 32).toInt : ℝ) : EReal) = _
  rw [hb, hi]
  by_cases h : c = d
  · subst h
    rw [if_pos rfl, StableHlo.Predicate.cmpi_eq_iff.mpr rfl]
    have e1 : ((1#1 : BitVec 1).setWidth 32).toInt = 1 := by decide
    rw [e1]
    simp
  · rw [if_neg h]
    have hne : ¬ IntOp.cmpi .eq (BitVec.ofNat 32 c.val) (BitVec.ofNat 32 d.val) = 1#1 := fun e => h (Fin.ext (by
      have e' := congrArg BitVec.toNat (StableHlo.Predicate.cmpi_eq_iff.mp e)
      simp only [BitVec.toNat_ofNat] at e'
      have := c.isLt
      have := d.isLt
      omega))
    rw [eq_zero_of_ne_one hne]
    have e0 : ((0#1 : BitVec 1).setWidth 32).toInt = 0 := by decide
    rw [e0]
    simp

/-- The shared first-layer block. -/
theorem shared1_apply (x0 : FVec Ideal S1024x1536 .f32) (x1 : IVec S1024x1 32) (x2 : FVec Ideal S1536x144 .bf16) (x3 : FVec Ideal S144 .f32)
    (x4 : FVec Ideal S30x512 .bf16) (x5 : FVec Ideal S512 .f32) (x6 : FVec Ideal S64x8 .bf16) (x7 : FVec Ideal S8 .f32)
    (r : Fin 1024) (q : Fin 16) :
    k0_pay4 (F := Ideal) x0 x2 x3 (ix2 r q) = linf (blockParams x2 x3 x4 x5 x6 x7) (fun k => x0 (ix2 r k)) q := by
  unfold k0_pay4
  refine (extractStridedSlice_apply _ _ slices_S1024x144_o0_128_S1024x16 (ix2 r q) (ix2 r (⟨128 + q.val, by omega⟩ : Fin 144)) (fun a => ?_)).trans ?_
  · match a with
    | ⟨0, _⟩ => exact (Nat.zero_add _).symm
    | ⟨1, _⟩ => rfl
  · exact layer1_prod_apply x0 x2 x3 r _

/-- The 16th output of the shared block, as the body slices it off. -/
theorem shared1_last (x0 : FVec Ideal S1024x1536 .f32) (x1 : IVec S1024x1 32) (x2 : FVec Ideal S1536x144 .bf16) (x3 : FVec Ideal S144 .f32)
    (x4 : FVec Ideal S30x512 .bf16) (x5 : FVec Ideal S512 .f32) (x6 : FVec Ideal S64x8 .bf16) (x7 : FVec Ideal S8 .f32)
    (r : Fin 1024) :
    k0_pay9 (F := Ideal) (k0_pay4 x0 x2 x3) (ix2 r (0 : Fin 1))
      = linf (blockParams x2 x3 x4 x5 x6 x7) (fun k => x0 (ix2 r k)) ⟨15, by omega⟩ := by
  unfold k0_pay9
  refine (extractStridedSlice_apply _ _ slices_S1024x16_o0_15_S1024x1 (ix2 r (0 : Fin 1)) (ix2 r (⟨15, by omega⟩ : Fin 16)) (fun a => ?_)).trans ?_
  · match a with
    | ⟨0, _⟩ => exact (Nat.zero_add _).symm
    | ⟨1, _⟩ => rfl
  · exact shared1_apply x0 x1 x2 x3 x4 x5 x6 x7 r _

/-- The eight stacked outputs at one entry: column `j` of the product is output `j` of the first-layer stacks. -/
theorem layer1_stacks_apply (x0 : FVec Ideal S1024x1536 .f32) (x2 : FVec Ideal S1536x144 .bf16) (x3 : FVec Ideal S144 .f32)
    (x4 : FVec Ideal S30x512 .bf16) (x5 : FVec Ideal S512 .f32) (x6 : FVec Ideal S64x8 .bf16) (x7 : FVec Ideal S8 .f32)
    (r : Fin 1024) (j : Fin 128) :
    k0_pay3 (F := Ideal) x0 x2 x3 (ix2 r j) = lin1 (blockParams x2 x3 x4 x5 x6 x7) (fun k => x0 (ix2 r k)) j := by
  unfold k0_pay3
  refine (extractStridedSlice_apply _ _ slices_S1024x144_o0_0_S1024x128 (ix2 r j) (ix2 r (⟨j.val, by omega⟩ : Fin 144)) (fun a => ?_)).trans ?_
  · match a with
    | ⟨0, _⟩ => exact (Nat.zero_add _).symm
    | ⟨1, _⟩ => exact (Nat.zero_add _).symm
  · exact layer1_prod_apply x0 x2 x3 r _

/-- One term of the running sum: the indicator's column `d`, repeated along the 16 outputs, times the 16-wide column
    slice `d` of the stacked outputs, is indicator `d` times output `16 d + q`. The offsets are given as they are written
    (`n`, `m`) with the equations that tie them to the stack. -/
theorem layer1_term (oh : FVec Ideal S1024x8 .f32) (v : FVec Ideal S1024x128 .f32) (d : Fin 8) (n m : Nat)
    (hn : n = d.val) (hm : m = d.val * 16)
    (h8 : S1024x8.Slices ![0, n] S1024x1) (h128 : S1024x128.Slices ![0, m] S1024x16) (r : Fin 1024) (q : Fin 16) :
    broadcastTo S1024x16 (extractStridedSlice S1024x1 ![0, n] oh h8) broadcasts_S1024x1_S1024x16 (ix2 r q)
        * extractStridedSlice S1024x16 ![0, m] v h128 (ix2 r q)
      = oh (ix2 r d) * v (ix2 r (⟨d.val * 16 + q.val, by omega⟩ : Fin 128)) := by
  subst hn hm
  refine congrArg₂ (· * ·) ?_ ?_
  · refine (broadcastTo_apply _ broadcasts_S1024x1_S1024x16 (ix2 r q) (ix2 r (0 : Fin 1)) (fun a => ?_)).trans ?_
    · match a with
      | ⟨0, _⟩ => rfl
      | ⟨1, _⟩ => rfl
    · refine extractStridedSlice_apply _ oh h8 (ix2 r (0 : Fin 1)) (ix2 r d) (fun a => ?_)
      match a with
      | ⟨0, _⟩ => exact (Nat.zero_add _).symm
      | ⟨1, _⟩ => rfl
  · refine extractStridedSlice_apply _ v h128 (ix2 r q) (ix2 r (⟨d.val * 16 + q.val, by omega⟩ : Fin 128)) (fun a => ?_)
    match a with
    | ⟨0, _⟩ => exact (Nat.zero_add _).symm
    | ⟨1, _⟩ => rfl

/-- The indicator-weighted sum over the eight first-layer stacks is the selected stack's output. -/
theorem stack1_apply (x0 : FVec Ideal S1024x1536 .f32) (x1 : IVec S1024x1 32) (x2 : FVec Ideal S1536x144 .bf16) (x3 : FVec Ideal S144 .f32)
    (x4 : FVec Ideal S30x512 .bf16) (x5 : FVec Ideal S512 .f32) (x6 : FVec Ideal S64x8 .bf16) (x7 : FVec Ideal S8 .f32)
    (r : Fin 1024) (c : Fin 8) (hc : x1 (ix2 r (0 : Fin 1)) = BitVec.ofNat 32 c.val) (q : Fin 16) :
    k0_pay7 (F := Ideal) (k0_pay3 x0 x2 x3) (k0_pay5 x1) (k0_pay6 x0 x2 x3 x1) (ix2 r q)
      = pick1 (blockParams x2 x3 x4 x5 x6 x7) (fun k => x0 (ix2 r k)) c q := by
  unfold k0_pay7 k0_pay6
  simp only [addf_apply, mulf_apply, broadcast_apply]
  rw [layer1_term _ _ 0 0 0 rfl rfl, layer1_term _ _ 1 1 16 rfl rfl, layer1_term _ _ 2 2 32 rfl rfl,
    layer1_term _ _ 3 3 48 rfl rfl, layer1_term _ _ 4 4 64 rfl rfl, layer1_term _ _ 5 5 80 rfl rfl,
    layer1_term _ _ 6 6 96 rfl rfl, layer1_term _ _ 7 7 112 rfl rfl]
  refine (select_chain c (fun d => k0_pay5 (F := Ideal) x1 (ix2 r d))
    (fun d => k0_pay3 (F := Ideal) x0 x2 x3 (ix2 r (⟨d.val * 16 + q.val, by omega⟩ : Fin 128))) _ Ideal.ofBits_zero_f32
    (fun d => onehot_apply x1 r c d hc)).trans ?_
  exact layer1_stacks_apply x0 x2 x3 x4 x5 x6 x7 r _

/-- The 16th output of the selected stack, as the body slices it off. -/
theorem stack1_last (x0 : FVec Ideal S1024x1536 .f32) (x1 : IVec S1024x1 32) (x2 : FVec Ideal S1536x144 .bf16) (x3 : FVec Ideal S144 .f32)
    (x4 : FVec Ideal S30x512 .bf16) (x5 : FVec Ideal S512 .f32) (x6 : FVec Ideal S64x8 .bf16) (x7 : FVec Ideal S8 .f32)
    (r : Fin 1024) (c : Fin 8) (hc : x1 (ix2 r (0 : Fin 1)) = BitVec.ofNat 32 c.val) :
    k0_pay8 (F := Ideal) (k0_pay3 x0 x2 x3) (k0_pay5 x1) (k0_pay6 x0 x2 x3 x1) (ix2 r (0 : Fin 1))
      = pick1 (blockParams x2 x3 x4 x5 x6 x7) (fun k => x0 (ix2 r k)) c ⟨15, by omega⟩ := by
  unfold k0_pay8
  refine (extractStridedSlice_apply _ _ slices_S1024x16_o0_15_S1024x1 (ix2 r (0 : Fin 1)) (ix2 r (⟨15, by omega⟩ : Fin 16)) (fun a => ?_)).trans ?_
  · match a with
    | ⟨0, _⟩ => exact (Nat.zero_add _).symm
    | ⟨1, _⟩ => rfl
  · exact stack1_apply x0 x1 x2 x3 x4 x5 x6 x7 r c hc _

end Cert.KernelIdeal.Body

end
-- ==== Proof.KBodyB.lean ====
/-
  The second layer inside the kernel body, read at one row.

  The body forms, from the selected first-layer stack plus the shared block on their first 15 outputs (the row's `mix`),
  the 30 hidden values (the squares times 127/128 beside the sums, clipped into [0, 1]), multiplies them with the loaded
  [30, 512] weights and adds the bias: at row `r` and column `j` this is the row's `lin2` (`stack2_apply`). Its second
  part then starts the indicator-weighted sum over the second-layer stacks: a zero plus indicator column `d` times the
  64-column slice `d` of the second layer, for the first four stacks (`part2_apply`).
-/
import proofs.«431040_j52974126629260_2_alg».proof.Proof.KBodyDefs
import Idealize.ShloMosaic.Lib.Pipeline.Value
import Mathlib.Algebra.BigOperators.Group.Finset.Defs
import Mathlib.Algebra.BigOperators.Group.Finset.Basic

noncomputable section

namespace Cert.KernelIdeal.Body

open Cert.KernelIdeal Cert.KernelIdeal.Gen Cert.Moe Idealize.ShloMosaic Idealize.ShloMosaic.ValueIdx

/-! ## The second layer's product read at an index -/

theorem stack2_dot_lhs_0 (i : S1024x512.Idx) (q : dot_S1024x30_S30x512_S1024x512_1_0_0_1_n_n.contr.Idx) :
    (dot_S1024x30_S30x512_S1024x512_1_0_0_1_n_n.lhsIdx i q 0).val = (i 0).val := by
  unfold DotDims.lhsIdx
  rw [dif_neg (show ¬(0 : Fin S1024x30.rank) ∈ dot_S1024x30_S30x512_S1024x512_1_0_0_1_n_n.lhsBatch by decide), dif_pos (show (0 : Fin S1024x30.rank) ∈ dot_S1024x30_S30x512_S1024x512_1_0_0_1_n_n.lhsNonContracting by decide)]
  rfl
theorem stack2_dot_lhs_1 (i : S1024x512.Idx) (q : dot_S1024x30_S30x512_S1024x512_1_0_0_1_n_n.contr.Idx) :
    (dot_S1024x30_S30x512_S1024x512_1_0_0_1_n_n.lhsIdx i q 1).val = (q ⟨0, by decide⟩).val :=
  dot_S1024x30_S30x512_S1024x512_1_0_0_1_n_n.lhsIdx_val_of_single rfl i q
theorem stack2_dot_rhs_0 (i : S1024x512.Idx) (q : dot_S1024x30_S30x512_S1024x512_1_0_0_1_n_n.contr.Idx) :
    (dot_S1024x30_S30x512_S1024x512_1_0_0_1_n_n.rhsIdx i q 0).val = (q ⟨0, by decide⟩).val :=
  dot_S1024x30_S30x512_S1024x512_1_0_0_1_n_n.rhsIdx_val_of_single rfl i q
theorem stack2_dot_rhs_1 (i : S1024x512.Idx) (q : dot_S1024x30_S30x512_S1024x512_1_0_0_1_n_n.contr.Idx) :
    (dot_S1024x30_S30x512_S1024x512_1_0_0_1_n_n.rhsIdx i q 1).val = (i 1).val := by
  unfold DotDims.rhsIdx
  rw [dif_neg (show ¬(1 : Fin S30x512.rank) ∈ dot_S1024x30_S30x512_S1024x512_1_0_0_1_n_n.rhsBatch by decide), dif_pos (show (1 : Fin S30x512.rank) ∈ dot_S1024x30_S30x512_S1024x512_1_0_0_1_n_n.rhsNonContracting by decide)]
  rfl

/-- The [1024,30] by [30,512] product into a zero accumulator, at row `r` and column `j`: the sum over the 30 hidden
    coordinates of the left operand at (r, p) times the right operand at (p, j). -/
theorem stack2_matmul_apply (a : FVec Ideal S1024x30 .bf16) (b : FVec Ideal S30x512 .bf16) (r : Fin 1024) (j : Fin 512) :
    matmul dot_S1024x30_S30x512_S1024x512_1_0_0_1_n_n none a b (constant (F := Ideal) S1024x512 .f32 0x00000000#32) (ix2 r j)
      = ∑ p : Fin 30, a (ix2 r p) * b (ix2 p j) := by
  show FloatOps.matmul dot_S1024x30_S30x512_S1024x512_1_0_0_1_n_n none a b (constant (F := Ideal) S1024x512 .f32 0x00000000#32) (ix2 r j) = _
  rw [Ideal.matmul_constant_zero_apply, ← Equiv.sum_comp (ValueIdx.contrEquiv1 dot_S1024x30_S30x512_S1024x512_1_0_0_1_n_n 30 rfl rfl).symm]
  refine Finset.sum_congr rfl fun k _ => ?_
  have hk := ValueIdx.contrEquiv1_symm_val dot_S1024x30_S30x512_S1024x512_1_0_0_1_n_n 30 rfl rfl k
  have el : dot_S1024x30_S30x512_S1024x512_1_0_0_1_n_n.lhsIdx (ix2 r j) ((ValueIdx.contrEquiv1 dot_S1024x30_S30x512_S1024x512_1_0_0_1_n_n 30 rfl rfl).symm k) = ix2 r k := funext fun a => Fin.ext (by
    match a with
    | ⟨0, _⟩ => exact stack2_dot_lhs_0 _ _
    | ⟨1, _⟩ => exact (stack2_dot_lhs_1 _ _).trans hk)
  have er : dot_S1024x30_S30x512_S1024x512_1_0_0_1_n_n.rhsIdx (ix2 r j) ((ValueIdx.contrEquiv1 dot_S1024x30_S30x512_S1024x512_1_0_0_1_n_n 30 rfl rfl).symm k) = ix2 k j := funext fun a => Fin.ext (by
    match a with
    | ⟨0, _⟩ => exact (stack2_dot_rhs_0 _ _).trans hk
    | ⟨1, _⟩ => exact stack2_dot_rhs_1 _ _)
  rw [el, er]

/-! ## The hidden block -/

/-- Two [1024,15] blocks laid side by side, at row `r` and column `p` of 30: the first block at column `p` when `p` is
    below 15, else the second at column `p - 15`. -/
theorem stack2_concat_apply (A B : FVec Ideal S1024x15 .f32) (r : Fin 1024) (p : Fin 30) :
    concatenate S1024x30 1 [⟨S1024x15, A⟩, ⟨S1024x15, B⟩] concatenates_S1024x15_S1024x15_S1024x30_d1 (ix2 r p)
      = if h : p.val < 15 then A (ix2 r (⟨p.val, h⟩ : Fin 15)) else B (ix2 r (⟨p.val - 15, by omega⟩ : Fin 15)) := by
  by_cases h : p.val < 15
  · rw [dif_pos h]
    exact concatenate_pair_apply_left 1 A B concatenates_S1024x15_S1024x15_S1024x30_d1 (ix2 r p) rfl
      (ix2 r (⟨p.val, h⟩ : Fin 15)) (fun b => match b with
        | ⟨0, _⟩ => rfl
        | ⟨1, _⟩ => rfl)
  · rw [dif_neg h]
    exact concatenate_pair_apply_right 1 A B concatenates_S1024x15_S1024x15_S1024x30_d1 (ix2 r p) rfl rfl
      (ix2 r (⟨p.val - 15, by omega⟩ : Fin 15)) (fun b hb => match b, hb with
        | ⟨0, _⟩, _ => rfl
        | ⟨1, _⟩, hb => absurd rfl hb)
      (by show p.val - 15 + 15 = p.val; omega)

/-- The hidden block at row `r`: if a [1024,15] block `s` holds the row's `mix`, then its squares times 127/128 beside
    itself, clipped into [0, 1], are the row's 30 hidden values. -/
theorem stack2_hid_apply (P : Params) (xr : Fin 1536 → EReal) (c : Fin 8) (s : FVec Ideal S1024x15 .f32) (r : Fin 1024)
    (hs : ∀ p : Fin 15, s (ix2 r p) = mix P xr c p) (p : Fin 30) :
    min (Ideal.ofBits .f32 0x3F800000#32) (max (Ideal.ofBits .f32 0x00000000#32)
      (concatenate S1024x30 1 [⟨S1024x15, mulf (mulf s s) (broadcast S1024x15 (Ideal.ofBits .f32 0x3F7E0000#32))⟩, ⟨S1024x15, s⟩]
        concatenates_S1024x15_S1024x15_S1024x30_d1 (ix2 r p))) = hid P xr c p := by
  rw [stack2_concat_apply]
  unfold hid clip01
  by_cases h : p.val < 15
  · rw [dif_pos h, dif_pos h]
    show min _ (max _ (s (ix2 r (⟨p.val, h⟩ : Fin 15)) * s (ix2 r (⟨p.val, h⟩ : Fin 15)) * Ideal.ofBits .f32 0x3F7E0000#32)) = _
    rw [hs]
  · rw [dif_neg h, dif_neg h, hs]

/-! ## The second layer -/

/-- The second layer's 512 outputs: if the first 15 outputs of the selected stack plus the shared block are the row's `mix`,
    and the loaded weights are the row's second-layer weights, the body's value is the row's `lin2`. -/
theorem stack2_apply (P : Params) (xr : Fin 1536 → EReal) (c : Fin 8) (v10 : FVec Ideal S1024x128 .f32) (v11 : FVec Ideal S1024x16 .f32)
    (v18 : FVec Ideal S1024x8 .f32) (v49 : FVec Ideal S1024x16 .f32) (v74 : FVec Ideal S30x512 .bf16) (v77 : FVec Ideal S512 .f32) (r : Fin 1024)
    (hmix : ∀ p : Fin 15, k0_pay7 (F := Ideal) v10 v18 v49 (ix2 r (⟨p.val, by omega⟩ : Fin 16)) + v11 (ix2 r (⟨p.val, by omega⟩ : Fin 16)) = mix P xr c p)
    (hw2 : ∀ (p : Fin 30) (j : Fin 512), v74 (ix2 p j) = P.w2 j p) (hb2 : ∀ j : Fin 512, v77 (ix1 j) = P.b2 j) (j : Fin 512) :
    k0_pay10 (F := Ideal) v10 v11 v18 v49 v74 v77 (ix2 r j) = lin2 P xr c j := by
  unfold k0_pay10 lin2
  generalize k0_pay7 (F := Ideal) v10 v18 v49 = Y at hmix ⊢
  -- the sum block holds the row's mix
  have hs : ∀ p : Fin 15, addf (extractStridedSlice S1024x15 ![0, 0] Y slices_S1024x16_o0_0_S1024x15)
      (extractStridedSlice S1024x15 ![0, 0] v11 slices_S1024x16_o0_0_S1024x15) (ix2 r p) = mix P xr c p := fun p => by
    have e : ∀ x : FVec Ideal S1024x16 .f32, extractStridedSlice S1024x15 ![0, 0] x slices_S1024x16_o0_0_S1024x15 (ix2 r p)
        = x (ix2 r (⟨p.val, by omega⟩ : Fin 16)) := fun x =>
      extractStridedSlice_apply _ x _ (ix2 r p) (ix2 r (⟨p.val, by omega⟩ : Fin 16)) (fun a => match a with
        | ⟨0, _⟩ => by show r.val = 0 + r.val; omega
        | ⟨1, _⟩ => by show p.val = 0 + p.val; omega)
    show extractStridedSlice S1024x15 ![0, 0] Y slices_S1024x16_o0_0_S1024x15 (ix2 r p)
      + extractStridedSlice S1024x15 ![0, 0] v11 slices_S1024x16_o0_0_S1024x15 (ix2 r p) = _
    rw [e Y, e v11]
    exact hmix p
  refine (addf_apply _ _ _).trans (congrArg₂ (· + ·) ?_ ?_)
  · -- the product
    refine (stack2_matmul_apply _ _ r j).trans (Finset.sum_congr rfl fun p _ => congrArg₂ (· * ·) ?_ ?_)
    · exact stack2_hid_apply P xr c _ r hs p
    · exact (congrFun (shapeCast_self v74 shapeCasts_S30x512_S30x512) (ix2 p j)).trans (hw2 p j)
  · -- the bias, one row broadcast down the rows
    refine (broadcastTo_apply _ broadcasts_S1x512_S1024x512 (ix2 r j) (ix2 (0 : Fin 1) j) (fun a => match a with
      | ⟨0, _⟩ => by show (0 : Nat) = if (1 : Nat) = 1 then 0 else r.val; rw [if_pos rfl]
      | ⟨1, _⟩ => by show j.val = if (512 : Nat) = 1 then 0 else j.val; rw [if_neg (by decide)])).trans ?_
    refine (shapeCast_apply v77 shapeCasts_S512_S1x512 (ix2 (0 : Fin 1) j) (ix1 j) ?_).trans (hb2 j)
    rw [Shape.rowMajor_val_one, Shape.rowMajor_val_two]
    show j.val = 0 * 512 + j.val
    omega

/-! ## The first four terms of the sum over the second-layer stacks -/

/-- A one-column slice of the indicator block broadcast along the 64 lanes reads, at row `r` and any lane, the indicator's
    entry at row `r` and that column. -/
theorem stack2_indCol_apply (v18 : FVec Ideal S1024x8 .f32) (n : Nat) (d : Fin 8) (hd : d.val = n)
    (h : S1024x8.Slices ![0, n] S1024x1) (hb : S1024x1.Broadcasts S1024x64) (r : Fin 1024) (q : Fin 64) :
    broadcastTo S1024x64 (extractStridedSlice S1024x1 ![0, n] v18 h) hb (ix2 r q) = v18 (ix2 r d) := by
  refine (broadcastTo_apply _ hb (ix2 r q) (ix2 r (0 : Fin 1)) (fun a => match a with
    | ⟨0, _⟩ => by show r.val = if (1024 : Nat) = 1 then 0 else r.val; rw [if_neg (by decide)]
    | ⟨1, _⟩ => by show (0 : Nat) = if (1 : Nat) = 1 then 0 else q.val; rw [if_pos rfl])).trans ?_
  exact extractStridedSlice_apply _ v18 h (ix2 r (0 : Fin 1)) (ix2 r d) (fun a => match a with
    | ⟨0, _⟩ => by show r.val = 0 + r.val; omega
    | ⟨1, _⟩ => by show d.val = n + 0; omega)

/-- A 64-column slice of the second layer's block at offset `n` reads, at row `r` and lane `q`, the block at column `n + q`. -/
theorem stack2_slice64_apply (x : FVec Ideal S1024x512 .f32) (n : Nat) (h : S1024x512.Slices ![0, n] S1024x64)
    (r : Fin 1024) (q : Fin 64) (j : Fin 512) (hj : j.val = n + q.val) :
    extractStridedSlice S1024x64 ![0, n] x h (ix2 r q) = x (ix2 r j) :=
  extractStridedSlice_apply _ x h (ix2 r q) (ix2 r j) (fun a => match a with
    | ⟨0, _⟩ => by show r.val = 0 + r.val; omega
    | ⟨1, _⟩ => by show j.val = n + q.val; exact hj)

/-- The first four terms of the indicator-weighted sum over the second-layer stacks, as the body's second part leaves it. -/
theorem part2_apply (P : Params) (xr : Fin 1536 → EReal) (c : Fin 8) (v10 : FVec Ideal S1024x128 .f32) (v11 : FVec Ideal S1024x16 .f32)
    (v18 : FVec Ideal S1024x8 .f32) (v49 : FVec Ideal S1024x16 .f32) (v74 : FVec Ideal S30x512 .bf16) (v77 : FVec Ideal S512 .f32) (r : Fin 1024) (q : Fin 64) :
    k0_pay11 (F := Ideal) v10 v11 v18 v49 v74 v77 (ix2 r q)
      = Ideal.ofBits .f32 0x00000000#32
        + v18 (ix2 r (0 : Fin 8)) * k0_pay10 (F := Ideal) v10 v11 v18 v49 v74 v77 (ix2 r (⟨q.val, by omega⟩ : Fin 512))
        + v18 (ix2 r (1 : Fin 8)) * k0_pay10 (F := Ideal) v10 v11 v18 v49 v74 v77 (ix2 r (⟨64 + q.val, by omega⟩ : Fin 512))
        + v18 (ix2 r (2 : Fin 8)) * k0_pay10 (F := Ideal) v10 v11 v18 v49 v74 v77 (ix2 r (⟨128 + q.val, by omega⟩ : Fin 512))
        + v18 (ix2 r (3 : Fin 8)) * k0_pay10 (F := Ideal) v10 v11 v18 v49 v74 v77 (ix2 r (⟨192 + q.val, by omega⟩ : Fin 512)) := by
  unfold k0_pay11
  generalize k0_pay10 (F := Ideal) v10 v11 v18 v49 v74 v77 = X
  show Ideal.ofBits .f32 0x00000000#32
      + broadcastTo S1024x64 (extractStridedSlice S1024x1 ![0, 0] v18 slices_S1024x8_o0_0_S1024x1) broadcasts_S1024x1_S1024x64 (ix2 r q)
        * extractStridedSlice S1024x64 ![0, 0] X slices_S1024x512_o0_0_S1024x64 (ix2 r q)
      + broadcastTo S1024x64 (extractStridedSlice S1024x1 ![0, 1] v18 slices_S1024x8_o0_1_S1024x1) broadcasts_S1024x1_S1024x64 (ix2 r q)
        * extractStridedSlice S1024x64 ![0, 64] X slices_S1024x512_o0_64_S1024x64 (ix2 r q)
      + broadcastTo S1024x64 (extractStridedSlice S1024x1 ![0, 2] v18 slices_S1024x8_o0_2_S1024x1) broadcasts_S1024x1_S1024x64 (ix2 r q)
        * extractStridedSlice S1024x64 ![0, 128] X slices_S1024x512_o0_128_S1024x64 (ix2 r q)
      + broadcastTo S1024x64 (extractStridedSlice S1024x1 ![0, 3] v18 slices_S1024x8_o0_3_S1024x1) broadcasts_S1024x1_S1024x64 (ix2 r q)
        * extractStridedSlice S1024x64 ![0, 192] X slices_S1024x512_o0_192_S1024x64 (ix2 r q) = _
  rw [stack2_indCol_apply v18 0 (0 : Fin 8) rfl, stack2_indCol_apply v18 1 (1 : Fin 8) rfl,
    stack2_indCol_apply v18 2 (2 : Fin 8) rfl, stack2_indCol_apply v18 3 (3 : Fin 8) rfl,
    stack2_slice64_apply X 0 _ r q (⟨q.val, by omega⟩ : Fin 512) (by show q.val = 0 + q.val; omega),
    stack2_slice64_apply X 64 _ r q (⟨64 + q.val, by omega⟩ : Fin 512) rfl,
    stack2_slice64_apply X 128 _ r q (⟨128 + q.val, by omega⟩ : Fin 512) rfl,
    stack2_slice64_apply X 192 _ r q (⟨192 + q.val, by omega⟩ : Fin 512) rfl]

end Cert.KernelIdeal.Body

end
-- ==== Proof.KBodyC.lean ====
/-
  The last stretch of the kernel body, read at one row.

  The running sum over the second layer's eight stacks is completed (four terms were added before, four are added here);
  weighted by the row's 0/1 indicator it is the selected stack's 64 outputs. These are clipped into [0, 1] and multiplied
  into the third layer's eight outputs; the indicator-weighted sum over those eight keeps the selected one, and the two
  16th outputs of the first layer are added.
-/
import proofs.«431040_j52974126629260_2_alg».proof.Proof.KBodyDefs
import Idealize.ShloMosaic.Lib.Pipeline.Value
import Idealize.ShloMosaic.Lib.ValueLayout

noncomputable section

namespace Cert.KernelIdeal.Body

open Cert.KernelIdeal Cert.KernelIdeal.Gen Cert.Moe Idealize.ShloMosaic Idealize.ShloMosaic.ValueIdx

/-! ## The layout operations of this stretch, read at an index -/

/-- Column ⟨n⟩ of the indicator, repeated along the 64 lanes, reads the indicator at that column. -/
theorem final_ohcol_apply (v18 : FVec Ideal S1024x8 .f32) (n : Nat) (h : S1024x8.Slices ![0, n] S1024x1)
    (hb : S1024x1.Broadcasts S1024x64) (k : Fin 8) (hk : k.val = n) (r : Fin 1024) (q : Fin 64) :
    broadcastTo S1024x64 (extractStridedSlice S1024x1 ![0, n] v18 h) hb (ix2 r q) = v18 (ix2 r k) := by
  refine (broadcastTo_apply _ hb (ix2 r q) (ix2 r (0 : Fin 1)) (fun a => ?_)).trans ?_
  · match a with
    | ⟨0, _⟩ => show r.val = if (1024 : Nat) = 1 then 0 else r.val; rw [if_neg (by decide)]
    | ⟨1, _⟩ => show (0 : Nat) = if (1 : Nat) = 1 then 0 else q.val; rw [if_pos rfl]
  · refine extractStridedSlice_apply ![0, n] v18 h (ix2 r (0 : Fin 1)) (ix2 r k) (fun a => ?_)
    match a with
    | ⟨0, _⟩ => show r.val = 0 + r.val; omega
    | ⟨1, _⟩ => show k.val = n + 0; omega

/-- A 64-wide column slice of the second layer's outputs, starting at column n, reads them n columns further on. -/
theorem final_l2slice_apply (v80 : FVec Ideal S1024x512 .f32) (n : Nat) (h : S1024x512.Slices ![0, n] S1024x64)
    (r : Fin 1024) (q : Fin 64) (j : Fin 512) (hj : j.val = n + q.val) :
    extractStridedSlice S1024x64 ![0, n] v80 h (ix2 r q) = v80 (ix2 r j) := by
  refine extractStridedSlice_apply ![0, n] v80 h (ix2 r q) (ix2 r j) (fun a => ?_)
  match a with
  | ⟨0, _⟩ => show r.val = 0 + r.val; omega
  | ⟨1, _⟩ => show j.val = n + q.val; exact hj

/-- A vector of 1024 numbers viewed as a column reads, at (r, 0), the vector at r. -/
theorem final_col_apply {α : Type} (x : S1024.Idx → α) (h : S1024.ShapeCasts S1024x1) (r : Fin 1024) :
    shapeCast S1024x1 x h (ix2 r (0 : Fin 1)) = x (ix1 r) :=
  shapeCast_apply x h _ _ (by
    rw [Shape.rowMajor_val_one, Shape.rowMajor_val_two]
    show r.val = r.val * 1 + 0
    omega)

/-- The third layer's bias, viewed as a row and repeated down the 1024 rows, reads the bias at the column. -/
theorem final_bias_apply (v130 : FVec Ideal S8 .f32) (h : S8.ShapeCasts S1x8) (hb : S1x8.Broadcasts S1024x8) (r : Fin 1024) (d : Fin 8) :
    broadcastTo S1024x8 (shapeCast S1x8 v130 h) hb (ix2 r d) = v130 (ix1 d) :=
  (broadcastTo_1b_ab_apply _ hb r d).trans (shapeCast_a_1a_apply v130 h (0 : Fin 1) d)

/-! ## The lane sum and the third layer's product -/

/-- The sum along the 8 lanes of a [1024, 8] array, read at row r, is the sum of the row's 8 entries. -/
theorem final_lanesum_apply (Z : FVec Ideal S1024x8 .f32) (h : S1024x8.Reduces [1] S1024) (hφ : FKind.Formats .f32)
    (hacc : (0x00000000#32 : BitVec 32) = 0x00000000#32) (r : Fin 1024) :
    multiReduction (F := Ideal) .add [1] S1024 Z 0x00000000#32 h hφ hacc (ix1 r) = ∑ d : Fin 8, Z (ix2 r d) := by
  refine (Ideal.multiReduction_add_single Z 0x00000000#32 h hφ hacc (ix1 r)).trans ?_
  refine Finset.sum_congr rfl fun d _ => congrArg Z ?_
  funext a
  apply Fin.ext
  match a with
  | ⟨0, _⟩ => rfl
  | ⟨1, _⟩ => rfl

theorem final_dot_lhs_0 (i : S1024x8.Idx) (q : dot_S1024x64_S64x8_S1024x8_1_0_0_1_n_n.contr.Idx) :
    (dot_S1024x64_S64x8_S1024x8_1_0_0_1_n_n.lhsIdx i q 0).val = (i 0).val := by
  unfold DotDims.lhsIdx
  rw [dif_neg (show ¬(0 : Fin S1024x64.rank) ∈ dot_S1024x64_S64x8_S1024x8_1_0_0_1_n_n.lhsBatch by decide), dif_pos (show (0 : Fin S1024x64.rank) ∈ dot_S1024x64_S64x8_S1024x8_1_0_0_1_n_n.lhsNonContracting by decide)]
  rfl
theorem final_dot_lhs_1 (i : S1024x8.Idx) (q : dot_S1024x64_S64x8_S1024x8_1_0_0_1_n_n.contr.Idx) :
    (dot_S1024x64_S64x8_S1024x8_1_0_0_1_n_n.lhsIdx i q 1).val = (q ⟨0, by decide⟩).val :=
  dot_S1024x64_S64x8_S1024x8_1_0_0_1_n_n.lhsIdx_val_of_single rfl i q
theorem final_dot_rhs_0 (i : S1024x8.Idx) (q : dot_S1024x64_S64x8_S1024x8_1_0_0_1_n_n.contr.Idx) :
    (dot_S1024x64_S64x8_S1024x8_1_0_0_1_n_n.rhsIdx i q 0).val = (q ⟨0, by decide⟩).val :=
  dot_S1024x64_S64x8_S1024x8_1_0_0_1_n_n.rhsIdx_val_of_single rfl i q
theorem final_dot_rhs_1 (i : S1024x8.Idx) (q : dot_S1024x64_S64x8_S1024x8_1_0_0_1_n_n.contr.Idx) :
    (dot_S1024x64_S64x8_S1024x8_1_0_0_1_n_n.rhsIdx i q 1).val = (i 1).val := by
  unfold DotDims.rhsIdx
  rw [dif_neg (show ¬(1 : Fin S64x8.rank) ∈ dot_S1024x64_S64x8_S1024x8_1_0_0_1_n_n.rhsBatch by decide), dif_pos (show (1 : Fin S64x8.rank) ∈ dot_S1024x64_S64x8_S1024x8_1_0_0_1_n_n.rhsNonContracting by decide)]
  rfl

/-- The [1024, 64] by [64, 8] product into a zero accumulator, read at (r, d): the sum over the 64 contracted coordinates. -/
theorem final_matmul_apply (A : FVec Ideal S1024x64 .bf16) (B : FVec Ideal S64x8 .bf16) (r : Fin 1024) (d : Fin 8) :
    matmul dot_S1024x64_S64x8_S1024x8_1_0_0_1_n_n none A B (constant (F := Ideal) S1024x8 .f32 0x00000000#32) (ix2 r d)
      = ∑ q : Fin 64, A (ix2 r q) * B (ix2 q d) := by
  simp only [matmul]
  rw [Ideal.matmul_constant_zero_apply, ← Equiv.sum_comp (contrEquiv1 dot_S1024x64_S64x8_S1024x8_1_0_0_1_n_n 64 rfl rfl).symm]
  refine Finset.sum_congr rfl fun k _ => ?_
  have hk := contrEquiv1_symm_val dot_S1024x64_S64x8_S1024x8_1_0_0_1_n_n 64 rfl rfl k
  have el : dot_S1024x64_S64x8_S1024x8_1_0_0_1_n_n.lhsIdx (ix2 r d) ((contrEquiv1 dot_S1024x64_S64x8_S1024x8_1_0_0_1_n_n 64 rfl rfl).symm k) = ix2 r k := funext fun a => Fin.ext (by
    match a with
    | ⟨0, _⟩ => exact final_dot_lhs_0 _ _
    | ⟨1, _⟩ => exact (final_dot_lhs_1 _ _).trans hk)
  have er : dot_S1024x64_S64x8_S1024x8_1_0_0_1_n_n.rhsIdx (ix2 r d) ((contrEquiv1 dot_S1024x64_S64x8_S1024x8_1_0_0_1_n_n 64 rfl rfl).symm k) = ix2 k d := funext fun a => Fin.ext (by
    match a with
    | ⟨0, _⟩ => exact (final_dot_rhs_0 _ _).trans hk
    | ⟨1, _⟩ => exact final_dot_rhs_1 _ _)
  rw [el, er]

/-! ## The completed sum over the second layer's stacks -/

/-- The half-finished sum plus the four remaining indicator-weighted column slices is, at (r, q), output q of the selected
    second-layer stack: of the eight terms only the selected one survives. -/
theorem final_acc_apply (P : Params) (xr : Fin 1536 → EReal) (c : Fin 8) (v18 : FVec Ideal S1024x8 .f32)
    (v80 : FVec Ideal S1024x512 .f32) (v101 : FVec Ideal S1024x64 .f32) (r : Fin 1024)
    (hoh : ∀ d : Fin 8, v18 (ix2 r d) = if c = d then 1 else 0)
    (hl2 : ∀ j : Fin 512, v80 (ix2 r j) = lin2 P xr c j)
    (h101 : ∀ q : Fin 64, v101 (ix2 r q) = Ideal.ofBits .f32 0x00000000#32
        + v18 (ix2 r (0 : Fin 8)) * v80 (ix2 r (⟨q.val, by omega⟩ : Fin 512))
        + v18 (ix2 r (1 : Fin 8)) * v80 (ix2 r (⟨64 + q.val, by omega⟩ : Fin 512))
        + v18 (ix2 r (2 : Fin 8)) * v80 (ix2 r (⟨128 + q.val, by omega⟩ : Fin 512))
        + v18 (ix2 r (3 : Fin 8)) * v80 (ix2 r (⟨192 + q.val, by omega⟩ : Fin 512)))
    (s4 : S1024x8.Slices ![0, 4] S1024x1) (s5 : S1024x8.Slices ![0, 5] S1024x1) (s6 : S1024x8.Slices ![0, 6] S1024x1)
    (s7 : S1024x8.Slices ![0, 7] S1024x1) (hb : S1024x1.Broadcasts S1024x64)
    (t4 : S1024x512.Slices ![0, 256] S1024x64) (t5 : S1024x512.Slices ![0, 320] S1024x64)
    (t6 : S1024x512.Slices ![0, 384] S1024x64) (t7 : S1024x512.Slices ![0, 448] S1024x64) (q : Fin 64) :
    addf (addf (addf (addf v101
        (mulf (broadcastTo S1024x64 (extractStridedSlice S1024x1 ![0, 4] v18 s4) hb) (extractStridedSlice S1024x64 ![0, 256] v80 t4)))
        (mulf (broadcastTo S1024x64 (extractStridedSlice S1024x1 ![0, 5] v18 s5) hb) (extractStridedSlice S1024x64 ![0, 320] v80 t5)))
        (mulf (broadcastTo S1024x64 (extractStridedSlice S1024x1 ![0, 6] v18 s6) hb) (extractStridedSlice S1024x64 ![0, 384] v80 t6)))
        (mulf (broadcastTo S1024x64 (extractStridedSlice S1024x1 ![0, 7] v18 s7) hb) (extractStridedSlice S1024x64 ![0, 448] v80 t7))
      (ix2 r q) = lin2 P xr c ⟨c.val * 64 + q.val, by omega⟩ := by
  simp only [addf_apply, mulf_apply]
  rw [final_ohcol_apply v18 4 s4 hb (4 : Fin 8) rfl r q, final_ohcol_apply v18 5 s5 hb (5 : Fin 8) rfl r q,
    final_ohcol_apply v18 6 s6 hb (6 : Fin 8) rfl r q, final_ohcol_apply v18 7 s7 hb (7 : Fin 8) rfl r q,
    final_l2slice_apply v80 256 t4 r q ⟨256 + q.val, by omega⟩ rfl, final_l2slice_apply v80 320 t5 r q ⟨320 + q.val, by omega⟩ rfl,
    final_l2slice_apply v80 384 t6 r q ⟨384 + q.val, by omega⟩ rfl, final_l2slice_apply v80 448 t7 r q ⟨448 + q.val, by omega⟩ rfl,
    h101 q, ← hl2]
  have key := select_chain c (fun d => v18 (ix2 r d)) (fun d => v80 (ix2 r (⟨d.val * 64 + q.val, by omega⟩ : Fin 512)))
    (Ideal.ofBits .f32 0x00000000#32) Ideal.ofBits_zero_f32 hoh
  rw [show (⟨q.val, by omega⟩ : Fin 512) = ⟨(0 : Fin 8).val * 64 + q.val, by omega⟩ from Fin.ext (by simp)]
  exact key

/-! ## The stored value -/

/-- From the indicator, the second layer's outputs, the half-finished sum over its stacks, the third layer's loaded weights
    and the two 16th outputs of the first layer, the stored value is the row's result. -/
theorem final_apply (P : Params) (xr : Fin 1536 → EReal) (c : Fin 8) (v18 : FVec Ideal S1024x8 .f32) (v61 v63 : FVec Ideal S1024x1 .f32)
    (v80 : FVec Ideal S1024x512 .f32) (v101 : FVec Ideal S1024x64 .f32) (v127 : FVec Ideal S64x8 .bf16) (v130 : FVec Ideal S8 .f32) (r : Fin 1024)
    (hoh : ∀ d : Fin 8, v18 (ix2 r d) = if c = d then 1 else 0)
    (hl2 : ∀ j : Fin 512, v80 (ix2 r j) = lin2 P xr c j)
    (h101 : ∀ q : Fin 64, v101 (ix2 r q) = Ideal.ofBits .f32 0x00000000#32
        + v18 (ix2 r (0 : Fin 8)) * v80 (ix2 r (⟨q.val, by omega⟩ : Fin 512))
        + v18 (ix2 r (1 : Fin 8)) * v80 (ix2 r (⟨64 + q.val, by omega⟩ : Fin 512))
        + v18 (ix2 r (2 : Fin 8)) * v80 (ix2 r (⟨128 + q.val, by omega⟩ : Fin 512))
        + v18 (ix2 r (3 : Fin 8)) * v80 (ix2 r (⟨192 + q.val, by omega⟩ : Fin 512)))
    (hwo : ∀ (q : Fin 64) (d : Fin 8), v127 (ix2 q d) = P.wo d q) (hbo : ∀ d : Fin 8, v130 (ix1 d) = P.bo d)
    (h63 : v63 (ix2 r (0 : Fin 1)) = linf P xr ⟨15, by omega⟩) (h61 : v61 (ix2 r (0 : Fin 1)) = pick1 P xr c ⟨15, by omega⟩) :
    k0_pay1 (F := Ideal) v18 v61 v63 v80 v101 v127 v130 (ix2 r (0 : Fin 1)) = rowOut P xr c := by
  unfold k0_pay1
  simp only [addf_apply]
  rw [h63, h61]
  show _ = lin3 P xr c c + linf P xr ⟨15, by omega⟩ + pick1 P xr c ⟨15, by omega⟩
  refine congrArg (fun t => t + linf P xr ⟨15, by omega⟩ + pick1 P xr c ⟨15, by omega⟩) ?_
  -- the column cast and the lane sum: a sum over the 8 third-layer outputs
  refine (final_col_apply _ _ r).trans ?_
  refine (final_lanesum_apply _ _ _ _ r).trans ?_
  -- weighted by the indicator, only the selected output survives
  refine Eq.trans (Finset.sum_congr rfl fun d _ => ?_)
    (select_sum c (fun d => v18 (ix2 r d)) (fun d => lin3 P xr c d) hoh)
  show v18 (ix2 r d) * _ = v18 (ix2 r d) * lin3 P xr c d
  refine congrArg (fun t => v18 (ix2 r d) * t) ?_
  -- output d of the third layer: the product with the loaded weights, plus the bias
  show matmul _ none _ _ _ (ix2 r d) + broadcastTo S1024x8 _ _ (ix2 r d) = _
  rw [final_bias_apply v130 _ _ r d, hbo d, final_matmul_apply _ _ r d]
  show _ = (∑ q : Fin 64, pick2 P xr c q * P.wo d q) + P.bo d
  refine congrArg (fun t => t + P.bo d) (Finset.sum_congr rfl fun q _ => ?_)
  rw [shapeCast_self, hwo q d]
  refine congrArg (fun t => t * P.wo d q) ?_
  -- the clipped selected output of the second layer
  show clip01 (_ : EReal) = clip01 (lin2 P xr c ⟨c.val * 64 + q.val, by omega⟩)
  refine congrArg clip01 ?_
  exact final_acc_apply P xr c v18 v80 v101 r hoh hl2 h101 _ _ _ _ _ _ _ _ _ q

end Cert.KernelIdeal.Body

end
-- ==== Proof.KBody.lean ====
/-
  The kernel body at one row: what it stores is the row's result (Spec.lean's `rowOut`) at the weights the loaded blocks hold
  and the stack the row's index names. The three stretches of the body (first layer and selection; second layer; third
  layer, lane sum and the final additions) are read in their own modules; here they are composed: the last stretch takes
  the indicator, the second layer's outputs, the half-finished sum over its stacks and the two 16th outputs of the first
  layer, and each of those is what the earlier stretches say it is.
-/
import proofs.«431040_j52974126629260_2_alg».proof.Proof.KBodyA
import proofs.«431040_j52974126629260_2_alg».proof.Proof.KBodyB
import proofs.«431040_j52974126629260_2_alg».proof.Proof.KBodyC

noncomputable section

namespace Cert.KernelIdeal.Body

open Cert.KernelIdeal Cert.KernelIdeal.Gen Cert.Moe Idealize.ShloMosaic Idealize.ShloMosaic.ValueIdx

theorem payload_row (x0 : FVec Ideal S1024x1536 .f32) (x1 : IVec S1024x1 32) (x2 : FVec Ideal S1536x144 .bf16) (x3 : FVec Ideal S144 .f32)
    (x4 : FVec Ideal S30x512 .bf16) (x5 : FVec Ideal S512 .f32) (x6 : FVec Ideal S64x8 .bf16) (x7 : FVec Ideal S8 .f32)
    (r : Fin 1024) (c : Fin 8) (hc : x1 (ix2 r (0 : Fin 1)) = BitVec.ofNat 32 c.val) :
    payload x0 x1 x2 x3 x4 x5 x6 x7 (ix2 r (0 : Fin 1)) = rowOut (blockParams x2 x3 x4 x5 x6 x7) (fun k => x0 (ix2 r k)) c := by
  unfold payload
  refine final_apply (blockParams x2 x3 x4 x5 x6 x7) (fun k => x0 (ix2 r k)) c _ _ _ _ _ x6 x7 r
    (fun d => onehot_apply x1 r c d hc)
    (fun j => stack2_apply (blockParams x2 x3 x4 x5 x6 x7) (fun k => x0 (ix2 r k)) c _ _ _ _ x4 x5 r ?_ (fun _ _ => rfl) (fun _ => rfl) j)
    (fun q => part2_apply (blockParams x2 x3 x4 x5 x6 x7) (fun k => x0 (ix2 r k)) c _ _ _ _ x4 x5 r q)
    (fun _ _ => rfl) (fun _ => rfl)
    (shared1_last x0 x1 x2 x3 x4 x5 x6 x7 r)
    (stack1_last x0 x1 x2 x3 x4 x5 x6 x7 r c hc)
  -- the first 15 outputs of the selected stack plus those of the shared block are the row's sums
  intro p
  rw [stack1_apply x0 x1 x2 x3 x4 x5 x6 x7 r c hc, shared1_apply x0 x1 x2 x3 x4 x5 x6 x7 r]
  rfl

end Cert.KernelIdeal.Body

end
-- ==== Proof.KHost.lean ====
/-
  What the region finds in the arrays the program around the kernel prepared, read at an index.

  Each prepared array is first written as the layout operations applied to the argument arrays (the `khost_v…_eq` equations);
  it is then read at an index: a transpose swaps the two coordinates, the change of format is the identity on extended reals,
  a two-piece concatenation along the first axis reads the first piece below its extent and the second piece from there on,
  and a word whose signed reading lies in 0 … 7 passes the clamp between 0 and 7 unchanged.
-/
import proofs.«431040_j52974126629260_2_alg».proof.Proof.Gen.KernelIdeal.Frame
import proofs.«431040_j52974126629260_2_alg».proof.Proof.Spec
import Idealize.ShloMosaic.Lib.Pipeline.Value
import Idealize.ShloMosaic.Lib.StableHlo.Run

noncomputable section

namespace Cert.KernelIdeal.Arr

open Cert.KernelIdeal Cert.KernelIdeal.Gen Cert.Moe Idealize.ShloMosaic Idealize.ShloMosaic.TcCoe Idealize.ShloMosaic.ValueIdx Idealize.SL.Sem

open Idealize.ShloMosaic.StableHlo

variable (m : (ℓ : Loc nD τ sig) → Buf (Elt Ideal) ℓ)

/-- The first-layer weights as the region finds them: the two weight arrays laid one under the other, then transposed. -/
theorem khost_v3_eq (c : Dev nD) :
    (V (F := Ideal) m c main_v3 : FVec Ideal S1536x144 .bf16)
      = transpose S1536x144 [1, 0] (truncf .bf16 (concatenate S144x1536 0 [⟨S128x1536, ((m ((c : Thread nD τ).loc main_arg2)) : FVec Ideal S128x1536 .f32)⟩, ⟨S16x1536, ((m ((c : Thread nD τ).loc main_arg4)) : FVec Ideal S16x1536 .f32)⟩] concatenates_S128x1536_S16x1536_S144x1536_d0 : FVec Ideal S144x1536 .f32) bitsLt_bf16_f32 : FVec Ideal S144x1536 .bf16) transposes_S144x1536_S1536x144_1_0 := by
  dsimp only [Gen.V]
  simp only [Gen.hostOps0, Gen.hostOps0_1, Gen.hostOps0_2, List.flatten_cons, List.flatten_nil, List.append_nil, List.cons_append, List.nil_append]
  after_results

/-- The first-layer biases as the region finds them: the two bias arrays laid end to end. -/
theorem khost_v1_eq (c : Dev nD) :
    (V (F := Ideal) m c main_v1 : FVec Ideal S144 .f32)
      = concatenate S144 0 [⟨S128, ((m ((c : Thread nD τ).loc main_arg3)) : FVec Ideal S128 .f32)⟩, ⟨S16, ((m ((c : Thread nD τ).loc main_arg5)) : FVec Ideal S16 .f32)⟩] concatenates_S128_S16_S144_d0 := by
  dsimp only [Gen.V]
  simp only [Gen.hostOps0, Gen.hostOps0_1, Gen.hostOps0_2, List.flatten_cons, List.flatten_nil, List.append_nil, List.cons_append, List.nil_append]
  after_results

/-- The second-layer weights as the region finds them: transposed. -/
theorem khost_v5_eq (c : Dev nD) :
    (V (F := Ideal) m c main_v5 : FVec Ideal S30x512 .bf16)
      = transpose S30x512 [1, 0] (truncf .bf16 ((m ((c : Thread nD τ).loc main_arg6)) : FVec Ideal S512x30 .f32) bitsLt_bf16_f32 : FVec Ideal S512x30 .bf16) transposes_S512x30_S30x512_1_0 := by
  dsimp only [Gen.V]
  simp only [Gen.hostOps0, Gen.hostOps0_1, Gen.hostOps0_2, List.flatten_cons, List.flatten_nil, List.append_nil, List.cons_append, List.nil_append]
  after_results

/-- The third-layer weights as the region finds them: transposed. -/
theorem khost_v7_eq (c : Dev nD) :
    (V (F := Ideal) m c main_v7 : FVec Ideal S64x8 .bf16)
      = transpose S64x8 [1, 0] (truncf .bf16 ((m ((c : Thread nD τ).loc main_arg8)) : FVec Ideal S8x64 .f32) bitsLt_bf16_f32 : FVec Ideal S8x64 .bf16) transposes_S8x64_S64x8_1_0 := by
  dsimp only [Gen.V]
  simp only [Gen.hostOps0, Gen.hostOps0_1, Gen.hostOps0_2, List.flatten_cons, List.flatten_nil, List.append_nil, List.cons_append, List.nil_append]
  after_results

/-- The index column as the region finds it: every index clamped between 0 and 7, the vector then read as one column. -/
theorem khost_v9_eq (c : Dev nD) :
    (V (F := Ideal) m c main_v9 : IVec S16384x1 32)
      = shapeCast S16384x1 (minsi (broadcastInDim S16384 ![] bcast_S_S16384 (constantI S_ 32 7#32)) (maxsi (broadcastInDim S16384 ![] bcast_S_S16384 (constantI S_ 32 0#32)) ((m ((c : Thread nD τ).loc main_arg1)) : IVec S16384 32))) shapeCasts_S16384_S16384x1 := by
  dsimp only [Gen.V]
  simp only [Gen.hostOps0, Gen.hostOps0_1, Gen.hostOps0_2, List.flatten_cons, List.flatten_nil, List.append_nil, List.cons_append, List.nil_append]
  after_results
  simp only [TRef.ofBuf, TRef.toBuf, cast_eq]
  rfl

/-- A word whose signed reading lies in 0 … 7 passes the clamp between 0 and 7 unchanged. -/
theorem khost_clamp_of_inRange (w : BitVec 32) (h0 : 0 ≤ w.toInt) (h8 : w.toInt < 8) :
    IntOp.minsi 7#32 (IntOp.maxsi 0#32 w) = w := by
  have z0 : (0#32 : BitVec 32).toInt = 0 := by decide
  have z7 : (7#32 : BitVec 32).toInt = 7 := by decide
  have e1 : IntOp.maxsi 0#32 w = w := by
    unfold IntOp.maxsi
    rw [if_neg]
    intro hs
    rw [BitVec.slt_iff_toInt_lt, z0] at hs
    omega
  rw [e1]
  unfold IntOp.minsi
  rw [if_neg]
  intro hs
  rw [BitVec.slt_iff_toInt_lt, z7] at hs
  omega

/-- The stacked, transposed first-layer weights: columns 0 … 127 are the rows of the stacks' weight array. -/
theorem wcat_stack (c : Dev nD) (k : Fin 1536) (j : Fin 128) :
    (V (F := Ideal) m c main_v3 : FVec Ideal S1536x144 .bf16) (ix2 k (⟨j.val, by omega⟩ : Fin 144))
      = ((m ((c : Thread nD τ).loc main_arg2)) : FVec Ideal S128x1536 .f32) (ix2 j k) := by
  refine (congrFun (khost_v3_eq m c) _).trans ?_
  refine (transpose_apply [1, 0] _ transposes_S144x1536_S1536x144_1_0 _ (ix2 (⟨j.val, by omega⟩ : Fin 144) k) (fun b => by
    match b with
    | ⟨0, _⟩ => rfl
    | ⟨1, _⟩ => rfl)).trans ?_
  refine (truncf_apply _ bitsLt_bf16_f32 _).trans ?_
  exact concatenate_pair_apply_left 0 _ _ concatenates_S128x1536_S16x1536_S144x1536_d0 _ rfl (ix2 j k) (fun b => by
    match b with
    | ⟨0, _⟩ => rfl
    | ⟨1, _⟩ => rfl)

/-- Columns 128 … 143 are the rows of the shared block's weight array. -/
theorem wcat_shared (c : Dev nD) (k : Fin 1536) (q : Fin 16) :
    (V (F := Ideal) m c main_v3 : FVec Ideal S1536x144 .bf16) (ix2 k (⟨128 + q.val, by omega⟩ : Fin 144))
      = ((m ((c : Thread nD τ).loc main_arg4)) : FVec Ideal S16x1536 .f32) (ix2 q k) := by
  refine (congrFun (khost_v3_eq m c) _).trans ?_
  refine (transpose_apply [1, 0] _ transposes_S144x1536_S1536x144_1_0 _ (ix2 (⟨128 + q.val, by omega⟩ : Fin 144) k) (fun b => by
    match b with
    | ⟨0, _⟩ => rfl
    | ⟨1, _⟩ => rfl)).trans ?_
  refine (truncf_apply _ bitsLt_bf16_f32 _).trans ?_
  exact concatenate_pair_apply_right 0 _ _ concatenates_S128x1536_S16x1536_S144x1536_d0 _ rfl rfl (ix2 q k)
    (fun b hb => by
      match b with
      | ⟨0, _⟩ => exact absurd rfl hb
      | ⟨1, _⟩ => rfl)
    (by show q.val + 128 = 128 + q.val; omega)

theorem bcat_stack (c : Dev nD) (j : Fin 128) :
    (V (F := Ideal) m c main_v1 : FVec Ideal S144 .f32) (ix1 (⟨j.val, by omega⟩ : Fin 144)) = ((m ((c : Thread nD τ).loc main_arg3)) : FVec Ideal S128 .f32) (ix1 j) := by
  refine (congrFun (khost_v1_eq m c) _).trans ?_
  exact concatenate_pair_apply_left 0 _ _ concatenates_S128_S16_S144_d0 _ rfl (ix1 j) (fun b => by
    match b with
    | ⟨0, _⟩ => rfl)

theorem bcat_shared (c : Dev nD) (q : Fin 16) :
    (V (F := Ideal) m c main_v1 : FVec Ideal S144 .f32) (ix1 (⟨128 + q.val, by omega⟩ : Fin 144)) = ((m ((c : Thread nD τ).loc main_arg5)) : FVec Ideal S16 .f32) (ix1 q) := by
  refine (congrFun (khost_v1_eq m c) _).trans ?_
  exact concatenate_pair_apply_right 0 _ _ concatenates_S128_S16_S144_d0 _ rfl rfl (ix1 q)
    (fun b hb => by
      match b with
      | ⟨0, _⟩ => exact absurd rfl hb)
    (by show q.val + 128 = 128 + q.val; omega)

/-- The transposed second-layer weights. -/
theorem w2t_apply (c : Dev nD) (p : Fin 30) (j : Fin 512) :
    (V (F := Ideal) m c main_v5 : FVec Ideal S30x512 .bf16) (ix2 p j) = ((m ((c : Thread nD τ).loc main_arg6)) : FVec Ideal S512x30 .f32) (ix2 j p) := by
  refine (congrFun (khost_v5_eq m c) _).trans ?_
  refine (transpose_apply [1, 0] _ transposes_S512x30_S30x512_1_0 _ (ix2 j p) (fun b => by
    match b with
    | ⟨0, _⟩ => rfl
    | ⟨1, _⟩ => rfl)).trans ?_
  exact truncf_apply _ bitsLt_bf16_f32 _

/-- The transposed third-layer weights. -/
theorem wot_apply (c : Dev nD) (q : Fin 64) (d : Fin 8) :
    (V (F := Ideal) m c main_v7 : FVec Ideal S64x8 .bf16) (ix2 q d) = ((m ((c : Thread nD τ).loc main_arg8)) : FVec Ideal S8x64 .f32) (ix2 d q) := by
  refine (congrFun (khost_v7_eq m c) _).trans ?_
  refine (transpose_apply [1, 0] _ transposes_S8x64_S64x8_1_0 _ (ix2 d q) (fun b => by
    match b with
    | ⟨0, _⟩ => rfl
    | ⟨1, _⟩ => rfl)).trans ?_
  exact truncf_apply _ bitsLt_bf16_f32 _

/-- The clamped index column: an index that names a stack is left as it is. -/
theorem idxcol_apply (c : Dev nD) (hin : InRange (m ((c : Thread nD τ).loc main_arg1))) (n : Fin 16384) :
    (V (F := Ideal) m c main_v9 : IVec S16384x1 32) (ix2 n (0 : Fin 1))
      = BitVec.ofNat 32 (stackOf (((m ((c : Thread nD τ).loc main_arg1)) : IVec S16384 32) (ix1 n))).val := by
  refine (congrFun (khost_v9_eq m c) _).trans ?_
  refine (shapeCast_apply _ shapeCasts_S16384_S16384x1 _ (ix1 n) (by
    rw [Shape.rowMajor_val_one, Shape.rowMajor_val_two]
    show n.val = n.val * 1 + 0
    omega)).trans ?_
  obtain ⟨h0, h8⟩ := hin n
  refine (khost_clamp_of_inRange _ h0 h8).trans ?_
  exact eq_ofNat_stackOf h0 h8

end Cert.KernelIdeal.Arr

end
-- ==== Proof.KArray.lean ====
/-
  From the blocks the grid points write to the whole result array.

  The kernel runs over a grid of 16 points. Point `t` stages rows 1024·t … 1024·t + 1023 of `x` and of the clamped index
  column, and the whole of the six prepared weight arrays; it writes back rows 1024·t … 1024·t + 1023 of the result. Here:
  the one store's payload is the body's value of the eight staged blocks; each staged block, read at an index, is an entry
  of the array it is cut from (a block's coordinate is block index × block size + the coordinate inside the block); so, by
  the body's row theorem and the reads of the prepared arrays, point `t` writes block `t` of the common function `G` of the
  ten argument arrays; the 16 blocks cover the 16384 rows (row `n` lies in the block of point `n / 1024`), so the array
  ends holding `G`.
-/
import proofs.«431040_j52974126629260_2_alg».proof.Proof.Gen.KernelIdeal.Value
import proofs.«431040_j52974126629260_2_alg».proof.Proof.KBody
import proofs.«431040_j52974126629260_2_alg».proof.Proof.KHost

noncomputable section

namespace Cert.KernelIdeal.Arr

open Cert.KernelIdeal Cert.KernelIdeal.Gen Cert.KernelIdeal.Body Cert.Moe Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The two spellings of "offset zero on both axes" and "on the one axis". -/
theorem arr_zero2 : (![0, 0] : Fin 2 → Nat) = fun _ => 0 := funext fun a => by fin_cases a <;> rfl
theorem arr_zero1 : (![0] : Fin 1 → Nat) = fun _ => 0 := funext fun a => by fin_cases a; rfl

/-- The grid has 16 points. -/
theorem arr_pt_lt (t : Fin cfg0.N) : t.val < 16 := by
  have hN : cfg0.N = 16 := N_0
  have h := t.isLt
  omega

/-- The index maps over the grid: the windows on x, on the index column and on the result move one block of rows per
    point; the six weight windows stay at block 0. -/
theorem arr_idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 2) = t.val ∧ win0_8.index t (1 : Fin 2) = 0) :=
  (by decide +kernel : ∀ t : Fin grid0.N, _)

/-- The one store's payload, every input read whole, is the body's value of the eight blocks. -/
theorem arr_out_eq_payload (x0 : FVec Ideal S1024x1536 .f32) (x1 : IVec S1024x1 32) (x2 : FVec Ideal S1536x144 .bf16)
    (x3 : FVec Ideal S144 .f32) (x4 : FVec Ideal S30x512 .bf16) (x5 : FVec Ideal S512 .f32) (x6 : FVec Ideal S64x8 .bf16)
    (x7 : FVec Ideal S8 .f32) :
    out0_8 (F := Ideal) x0 x1 x2 x3 x4 x5 x6 x7 = payload x0 x1 x2 x3 x4 x5 x6 x7 := by
  unfold out0_8
  rw [View.canon_unit_zero arr_zero2]
  simp only [View.ld_unit_zero (S := S1024x1536) arr_zero2, View.ld_unit_zero (S := S1024x1) arr_zero2,
    View.ld_unit_zero (S := S1536x144) arr_zero2, View.ld_unit_zero (S := S144) arr_zero1,
    View.ld_unit_zero (S := S30x512) arr_zero2, View.ld_unit_zero (S := S512) arr_zero1,
    View.ld_unit_zero (S := S64x8) arr_zero2, View.ld_unit_zero (S := S8) arr_zero1]
  rfl

/-! ## Each window's block at a point, read at an index -/

/-- Window 0's block at point `t` is rows 1024·t … 1024·t + 1023 of `x`. -/
theorem arr_blk0 (c : Dev nD) (t : Fin cfg0.N) (r : Fin 1024) (k : Fin 1536) :
    (iblk (F := Ideal) m c 0 t : FVec Ideal S1024x1536 .f32) (ix2 r k)
      = (m ((c : Thread nD τ).loc main_arg0) : FVec Ideal S16384x1536 .f32)
          (ix2 (⟨1024 * t.val + r.val, by have := arr_pt_lt t; omega⟩ : Fin 16384) k) := by
  obtain ⟨⟨e0, e1⟩, -⟩ := arr_idx_facts t
  unfold iblk
  rw [View.read_apply]
  show V m c main_arg0 _ = _
  rw [V_main_arg0]
  refine congrArg _ ?_
  funext a; apply Fin.ext
  match a with
  | ⟨0, _⟩ => show win0_0.index t (0 : Fin 2) * 1024 + 1 * r.val = 1024 * t.val + r.val; omega
  | ⟨1, _⟩ => show win0_0.index t (1 : Fin 2) * 1536 + 1 * k.val = k.val; omega

/-- Window 1's block at point `t` is rows 1024·t … of the index column. -/
theorem arr_blk1 (c : Dev nD) (t : Fin cfg0.N) (r : Fin 1024) :
    (iblk (F := Ideal) m c 1 t : IVec S1024x1 32) (ix2 r (0 : Fin 1))
      = (V (F := Ideal) m c main_v9 : IVec S16384x1 32)
          (ix2 (⟨1024 * t.val + r.val, by have := arr_pt_lt t; omega⟩ : Fin 16384) (0 : Fin 1)) := by
  obtain ⟨-, ⟨e0, e1⟩, -⟩ := arr_idx_facts t
  unfold iblk
  rw [View.read_apply]
  show V m c main_v9 _ = _
  refine congrArg _ ?_
  funext a; apply Fin.ext
  match a with
  | ⟨0, _⟩ => show win0_1.index t (0 : Fin 2) * 1024 + 1 * r.val = 1024 * t.val + r.val; omega
  | ⟨1, _⟩ => show win0_1.index t (1 : Fin 2) * 1 + 1 * 0 = 0; omega

/-- Windows 2 … 7 stage a whole array at every point. -/
theorem arr_blk2 (c : Dev nD) (t : Fin cfg0.N) (k : Fin 1536) (j : Fin 144) :
    (iblk (F := Ideal) m c 2 t : FVec Ideal S1536x144 .bf16) (ix2 k j) = (V (F := Ideal) m c main_v3 : FVec Ideal S1536x144 .bf16) (ix2 k j) := by
  obtain ⟨-, -, ⟨e0, e1⟩, -⟩ := arr_idx_facts t
  unfold iblk
  rw [View.read_apply]
  show V m c main_v3 _ = _
  refine congrArg _ ?_
  funext a; apply Fin.ext
  match a with
  | ⟨0, _⟩ => show win0_2.index t (0 : Fin 2) * 1536 + 1 * k.val = k.val; omega
  | ⟨1, _⟩ => show win0_2.index t (1 : Fin 2) * 144 + 1 * j.val = j.val; omega

theorem arr_blk3 (c : Dev nD) (t : Fin cfg0.N) (j : Fin 144) :
    (iblk (F := Ideal) m c 3 t : FVec Ideal S144 .f32) (ix1 j) = (V (F := Ideal) m c main_v1 : FVec Ideal S144 .f32) (ix1 j) := by
  obtain ⟨-, -, -, e0, -⟩ := arr_idx_facts t
  unfold iblk
  rw [View.read_apply]
  show V m c main_v1 _ = _
  refine congrArg _ ?_
  funext a; apply Fin.ext
  match a with
  | ⟨0, _⟩ => show win0_3.index t (0 : Fin 1) * 144 + 1 * j.val = j.val; omega

theorem arr_blk4 (c : Dev nD) (t : Fin cfg0.N) (p : Fin 30) (j : Fin 512) :
    (iblk (F := Ideal) m c 4 t : FVec Ideal S30x512 .bf16) (ix2 p j) = (V (F := Ideal) m c main_v5 : FVec Ideal S30x512 .bf16) (ix2 p j) := by
  obtain ⟨-, -, -, -, ⟨e0, e1⟩, -⟩ := arr_idx_facts t
  unfold iblk
  rw [View.read_apply]
  show V m c main_v5 _ = _
  refine congrArg _ ?_
  funext a; apply Fin.ext
  match a with
  | ⟨0, _⟩ => show win0_4.index t (0 : Fin 2) * 30 + 1 * p.val = p.val; omega
  | ⟨1, _⟩ => show win0_4.index t (1 : Fin 2) * 512 + 1 * j.val = j.val; omega

theorem arr_blk5 (c : Dev nD) (t : Fin cfg0.N) (j : Fin 512) :
    (iblk (F := Ideal) m c 5 t : FVec Ideal S512 .f32) (ix1 j) = (m ((c : Thread nD τ).loc main_arg7) : FVec Ideal S512 .f32) (ix1 j) := by
  obtain ⟨-, -, -, -, -, e0, -⟩ := arr_idx_facts t
  unfold iblk
  rw [View.read_apply]
  show V m c main_arg7 _ = _
  rw [V_main_arg7]
  refine congrArg _ ?_
  funext a; apply Fin.ext
  match a with
  | ⟨0, _⟩ => show win0_5.index t (0 : Fin 1) * 512 + 1 * j.val = j.val; omega

theorem arr_blk6 (c : Dev nD) (t : Fin cfg0.N) (q : Fin 64) (d : Fin 8) :
    (iblk (F := Ideal) m c 6 t : FVec Ideal S64x8 .bf16) (ix2 q d) = (V (F := Ideal) m c main_v7 : FVec Ideal S64x8 .bf16) (ix2 q d) := by
  obtain ⟨-, -, -, -, -, -, ⟨e0, e1⟩, -⟩ := arr_idx_facts t
  unfold iblk
  rw [View.read_apply]
  show V m c main_v7 _ = _
  refine congrArg _ ?_
  funext a; apply Fin.ext
  match a with
  | ⟨0, _⟩ => show win0_6.index t (0 : Fin 2) * 64 + 1 * q.val = q.val; omega
  | ⟨1, _⟩ => show win0_6.index t (1 : Fin 2) * 8 + 1 * d.val = d.val; omega

theorem arr_blk7 (c : Dev nD) (t : Fin cfg0.N) (d : Fin 8) :
    (iblk (F := Ideal) m c 7 t : FVec Ideal S8 .f32) (ix1 d) = (m ((c : Thread nD τ).loc main_arg9) : FVec Ideal S8 .f32) (ix1 d) := by
  obtain ⟨-, -, -, -, -, -, -, e0, -⟩ := arr_idx_facts t
  unfold iblk
  rw [View.read_apply]
  show V m c main_arg9 _ = _
  rw [V_main_arg9]
  refine congrArg _ ?_
  funext a; apply Fin.ext
  match a with
  | ⟨0, _⟩ => show win0_7.index t (0 : Fin 1) * 8 + 1 * d.val = d.val; omega

/-! ## One row of one block -/

/-- If the eight blocks hold row `n` of `x`, the word of the stack row `n`'s index names, and the weight arrays in the
    prepared layout, then what the body stores at row `r` is row `n` of the common function. -/
theorem arr_row_eq (x0 : FVec Ideal S1024x1536 .f32) (x1 : IVec S1024x1 32) (x2 : FVec Ideal S1536x144 .bf16)
    (x3 : FVec Ideal S144 .f32) (x4 : FVec Ideal S30x512 .bf16) (x5 : FVec Ideal S512 .f32) (x6 : FVec Ideal S64x8 .bf16)
    (x7 : FVec Ideal S8 .f32)
    (a0 : FVec Ideal S16384x1536 .f32) (a1 : IVec S16384 32) (W1 : FVec Ideal S128x1536 .f32) (b1 : FVec Ideal S128 .f32)
    (Wf : FVec Ideal S16x1536 .f32) (bf : FVec Ideal S16 .f32) (W2 : FVec Ideal S512x30 .f32) (b2 : FVec Ideal S512 .f32)
    (Wo : FVec Ideal S8x64 .f32) (bo : FVec Ideal S8 .f32) (r : Fin 1024) (n : Fin 16384)
    (h0 : ∀ k : Fin 1536, x0 (ix2 r k) = a0 (ix2 n k))
    (h1 : x1 (ix2 r (0 : Fin 1)) = BitVec.ofNat 32 (stackOf (a1 (ix1 n))).val)
    (hw1 : ∀ (k : Fin 1536) (j : Fin 128), x2 (ix2 k (⟨j.val, by omega⟩ : Fin 144)) = W1 (ix2 j k))
    (hwf : ∀ (k : Fin 1536) (q : Fin 16), x2 (ix2 k (⟨128 + q.val, by omega⟩ : Fin 144)) = Wf (ix2 q k))
    (hb1 : ∀ j : Fin 128, x3 (ix1 (⟨j.val, by omega⟩ : Fin 144)) = b1 (ix1 j))
    (hbf : ∀ q : Fin 16, x3 (ix1 (⟨128 + q.val, by omega⟩ : Fin 144)) = bf (ix1 q))
    (hw2 : ∀ (p : Fin 30) (j : Fin 512), x4 (ix2 p j) = W2 (ix2 j p))
    (hb2 : ∀ j : Fin 512, x5 (ix1 j) = b2 (ix1 j))
    (hwo : ∀ (q : Fin 64) (d : Fin 8), x6 (ix2 q d) = Wo (ix2 d q))
    (hbo : ∀ d : Fin 8, x7 (ix1 d) = bo (ix1 d)) :
    payload x0 x1 x2 x3 x4 x5 x6 x7 (ix2 r (0 : Fin 1)) = G a0 a1 W1 b1 Wf bf W2 b2 Wo bo (ix2 n (0 : Fin 1)) := by
  rw [payload_row x0 x1 x2 x3 x4 x5 x6 x7 r (stackOf (a1 (ix1 n))) h1, G_apply]
  have hP : blockParams x2 x3 x4 x5 x6 x7 = paramsOf W1 b1 Wf bf W2 b2 Wo bo := by
    unfold blockParams paramsOf
    congr 1
    · funext j k; exact hw1 k j
    · funext j; exact hb1 j
    · funext q k; exact hwf k q
    · funext q; exact hbf q
    · funext j p; exact hw2 p j
    · funext j; exact hb2 j
    · funext d q; exact hwo q d
    · funext d; exact hbo d
  rw [hP]
  refine congrArg (fun xr => rowOut _ xr _) ?_
  funext k; exact h0 k

/-! ## What a point writes back, and the whole array -/

/-- WHAT POINT `t` WRITES BACK is block `t` of the common function of the ten argument arrays. -/
theorem arr_flushed_eq (hin : ∀ c : Dev nD, InRange (m ((c : Thread nD τ).loc main_arg1))) (c : Dev nD) (t : Fin cfg0.N) :
    (dats (F := Ideal) m 0 c).flushed 8 t = ((cfg0.win 8).blk t).view.read (Elt Ideal)
      (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  have ht := arr_pt_lt t
  obtain ⟨-, -, -, -, -, -, -, -, e0, e1⟩ := arr_idx_facts t
  rw [Value.flushed8, arr_out_eq_payload]
  funext j
  obtain ⟨r, z, rfl⟩ : ∃ (r : Fin 1024) (z : Fin 1), j = ix2 r z := ⟨j 0, j 1, eq_ix2 j⟩
  obtain rfl : z = 0 := Subsingleton.elim _ _
  rw [View.read_apply]
  -- the block's row r is row 1024·t + r of the array
  have hemb : ((cfg0.win 8).blk t).view.emb (ix2 r (0 : Fin 1))
      = ix2 (⟨1024 * t.val + r.val, by omega⟩ : Fin 16384) (0 : Fin 1) := by
    funext a; apply Fin.ext
    match a with
    | ⟨0, _⟩ => show win0_8.index t (0 : Fin 2) * 1024 + 1 * r.val = 1024 * t.val + r.val; omega
    | ⟨1, _⟩ => show win0_8.index t (1 : Fin 2) * 1 + 1 * 0 = 0; omega
  rw [hemb]
  show payload (iblk m c 0 t) (iblk m c 1 t) (iblk m c 2 t) (iblk m c 3 t) (iblk m c 4 t) (iblk m c 5 t) (iblk m c 6 t) (iblk m c 7 t) (ix2 r (0 : Fin 1)) = _
  refine arr_row_eq _ _ _ _ _ _ _ _ _ _ _ _ _ _ _ _ _ _ r _
    (fun k => arr_blk0 m c t r k)
    ((arr_blk1 m c t r).trans (idxcol_apply m c (hin c) _))
    (fun k j => (arr_blk2 m c t k _).trans (wcat_stack m c k j))
    (fun k q => (arr_blk2 m c t k _).trans (wcat_shared m c k q))
    (fun j => (arr_blk3 m c t _).trans (bcat_stack m c j))
    (fun q => (arr_blk3 m c t _).trans (bcat_shared m c q))
    (fun p j => (arr_blk4 m c t p j).trans (w2t_apply m c p j))
    (fun j => arr_blk5 m c t j)
    (fun q d => (arr_blk6 m c t q d).trans (wot_apply m c q d))
    (fun d => arr_blk7 m c t d)

/-- An index of the result array is in point `t`'s block iff each coordinate is in the block's range on its axis. -/
theorem arr_mem_blk (t : Fin cfg0.N) (i : S16384x1.Idx) :
    i ∈ ((cfg0.win 8).blk t).view.set ↔ ∀ a : Fin 2, win0_8.index t a * S1024x1.size a ≤ (i a).val ∧ (i a).val < win0_8.index t a * S1024x1.size a + S1024x1.size a := by
  show i ∈ ((View.whole main_v10).slice (win0_8.rect t)).set ↔ _
  rw [View.set_slice_whole, Rect.mem_set_unit]
  exact Iff.rfl

/-- Every row of the result array is in some point's block: row `n` in that of point `n / 1024`. -/
theorem arr_cover (i : S16384x1.Idx) : ∃ t : Fin cfg0.N, (cfg0.win 8).flush t = true ∧ i ∈ ((cfg0.win 8).blk t).view.set := by
  have hN : cfg0.N = 16 := N_0
  have hi0 : (i 0).val < 16384 := (i 0).isLt
  have hi1 : (i 1).val < 1 := (i 1).isLt
  obtain ⟨t, htv⟩ : ∃ t : Fin cfg0.N, t.val = (i 0).val / 1024 := ⟨⟨(i 0).val / 1024, by omega⟩, rfl⟩
  obtain ⟨-, -, -, -, -, -, -, -, e0, e1⟩ := arr_idx_facts t
  refine ⟨t, flush0_8 t, ?_⟩
  rw [arr_mem_blk]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 1 ≤ (i 1).val ∧ (i 1).val < win0_8.index t (1 : Fin 2) * 1 + 1; omega

/-- THE KERNEL'S RESULT ARRAY after the run is the common function of the arguments. -/
theorem final (hin : ∀ c : Dev nD, InRange (m ((c : Thread nD τ).loc main_arg1))) (c : Dev nD) :
    (dats (F := Ideal) m 0 c).arrAt 8 cfg0.N = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (dats (F := Ideal) m 0 c).arrAt_eq_of_cover 8 _ (fun t _ => arr_flushed_eq m hin c t) arr_cover

end Cert.KernelIdeal.Arr

end
-- ==== Proof.LibBatchedTake.lean ====
/-
  A take along the middle axis of a rank-3 array, one index per leading coordinate.

  `jnp.take_along_axis(a, idx[:, None, None], axis=1)` of an array `a : [B, N, W]` at a vector of indices lowers to a
  `stablehlo.gather` whose operand and start indices share their leading axis as a batching axis, whose middle operand axis
  is collapsed and start-indexed, and whose last operand axis is kept whole as the result's offset axis. Result element
  (b, 0, q) is the operand at (b, i, q), where i is the start index for b read as a signed number and clamped into the axis,
  as StableHLO clamps every start index.
-/
import Idealize.ShloMosaic.PureOps.ShapeOps
import Idealize.ShloMosaic.Lib.ValueIdx

namespace BatchedTake

open Idealize.ShloMosaic Idealize.ShloMosaic.ValueIdx

/-- THE TAKE READ AT (b, 0, q), for any dimension numbers of the printed kind (each given by `rfl` on a program's record). -/
theorem gather_apply {α : Type} {B N W w : Nat} (d : GatherDims ⟨3, ![B, N, W]⟩ ⟨3, ![B, 1, 1]⟩ ⟨3, ![B, 1, W]⟩)
    (hod : d.offsetDims = [2]) (hcoll : d.collapsedSliceDims = [1]) (hob : d.operandBatchingDims = [0])
    (hsb : d.startIndicesBatchingDims = [0]) (hsim : d.startIndexMap = [1]) (hivd : d.indexVectorDim = 2)
    (x : (⟨3, ![B, N, W]⟩ : Shape).Idx → α) (idx : IVec ⟨3, ![B, 1, 1]⟩ w) (b : Fin B) (q : Fin W) (hN : 0 < N) :
    Host.gather d x idx (ix3 b (0 : Fin 1) q)
      = x (ix3 b (⟨min (idx (ix3 b (0 : Fin 1) (0 : Fin 1))).toInt.toNat (N - 1), by omega⟩ : Fin N) q) := by
  -- the dimension numbers become the printed literal lists
  obtain ⟨od, cd, ob, sb, sm, iv, ss, wf⟩ := d
  simp only at hod hcoll hob hsb hsim hivd
  subst hod hcoll hob hsb hsim hivd
  -- the slice on the collapsed axis has size one
  have hss1 : ss 1 = 1 := wf.2.2.2.2.2.2.2.2.2.2.2.1 1 (List.mem_singleton.mpr rfl)
  unfold Host.gather
  congr 1
  funext a
  refine Fin.ext ?_
  -- the operand index, axis by axis: clamped start + batching coordinate + offset coordinate
  match a with
  | ⟨0, h0⟩ =>
    -- axis 0, the batching axis: no start, no offset; the batching coordinate is the result's coordinate on its first
    -- batch axis, b
    show GatherDims.start _ (ix3 b (0 : Fin 1) q) idx ⟨0, h0⟩ + GatherDims.batchCoord _ (ix3 b (0 : Fin 1) q) ⟨0, h0⟩
      + GatherDims.offCoord _ (ix3 b (0 : Fin 1) q) ⟨0, h0⟩ = b.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, h1⟩ =>
    -- axis 1, collapsed and start-indexed: no batching and no offset coordinate; the start is the start index at
    -- (b, 0, 0), read signed and clamped to [0, N - 1] (the slice has size one)
    show GatherDims.start _ (ix3 b (0 : Fin 1) q) idx ⟨1, h1⟩ + GatherDims.batchCoord _ (ix3 b (0 : Fin 1) q) ⟨1, h1⟩
      + GatherDims.offCoord _ (ix3 b (0 : Fin 1) q) ⟨1, h1⟩ = min (idx (ix3 b (0 : Fin 1) (0 : Fin 1))).toInt.toNat (N - 1)
    rw [GatherDims.batchCoord_eq_zero _ _ _
        (fun h => absurd (show (1 : Nat) = 0 from congrArg Fin.val (List.mem_singleton.mp h)) Nat.one_ne_zero),
      GatherDims.offCoord_eq_zero _ _ _ (fun h => ((GatherDims.mem_sKept _ _).mp h).1 (List.mem_singleton.mpr rfl)),
      Nat.add_zero]
    unfold GatherDims.start
    split
    · show min (idx _).toInt.toNat (N - ss ⟨1, h1⟩) = _
      rw [show ss ⟨1, h1⟩ = 1 from hss1]
      -- the start-indices index read for component 0: the result's batch coordinates (b, 0), then 0 on the index
      -- vector's axis
      refine congrArg (fun z => min (idx z).toInt.toNat (N - 1)) ?_
      funext c
      refine Fin.ext ?_
      match c with
      | ⟨0, _⟩ => rfl
      | ⟨1, _⟩ => rfl
      | ⟨2, _⟩ => rfl
    · next ha => exact absurd (List.mem_singleton.mpr rfl) ha
  | ⟨2, h2⟩ =>
    -- axis 2, the offset axis: neither start-indexed nor batching; the offset coordinate is the result's coordinate on
    -- its offset axis, q
    show GatherDims.start _ (ix3 b (0 : Fin 1) q) idx ⟨2, h2⟩ + GatherDims.batchCoord _ (ix3 b (0 : Fin 1) q) ⟨2, h2⟩
      + GatherDims.offCoord _ (ix3 b (0 : Fin 1) q) ⟨2, h2⟩ = q.val
    rw [GatherDims.batchCoord_eq_zero _ _ _
        (fun h => absurd (show (2 : Nat) = 0 from congrArg Fin.val (List.mem_singleton.mp h)) (by decide)), Nat.add_zero]
    unfold GatherDims.start
    rw [dif_neg (fun h => absurd (show (2 : Nat) = 1 from congrArg Fin.val (List.mem_singleton.mp h)) (by decide)),
      Nat.zero_add]
    rfl

end BatchedTake
-- ==== Proof.RefTake.lean ====
/-
  The reference's three takes along the stack axis, read at an index when every index names a stack.

  Each take computes, from the index vector laid out as a [16384, 1, 1] array, the start indices (the index, plus 8 where
  it is negative), a mask saying which start indices lie in 0 … 7 (reduced by `and` over a size-one axis), the gather at the
  start indices, and the choice between the gathered value and a fill value by the mask. When every index lies in 0 … 7 the
  start indices are the indices, the mask is one everywhere, and the gathered element of row n is the operand's element at
  the stack the index of row n names.
-/
import proofs.«431040_j52974126629260_2_alg».proof.Proof.RefRead
import proofs.«431040_j52974126629260_2_alg».proof.Proof.LibBatchedTake
import proofs.«431040_j52974126629260_2_alg».proof.Proof.Spec
import Idealize.ShloMosaic.Lib.Affine
import Idealize.ShloMosaic.PureOps.Reduce

noncomputable section

namespace Cert.ReferenceIdeal.RefValue

open Cert.ReferenceIdeal Cert.ReferenceIdeal.ReadP Cert.Moe Idealize.ShloMosaic Idealize.ShloMosaic.ValueIdx

/-! ## Words that name a stack -/

/-- A word that is non-negative as a signed number is not below zero. -/
theorem take_slt_zero {w : BitVec 32} (h0 : 0 ≤ w.toInt) : IntOp.cmpi .slt w 0#32 = 0#1 := by
  refine eq_zero_of_ne_one fun h => ?_
  have h' := IntOp.cmpi_slt.1 h
  have z : (0#32 : BitVec 32).toInt = 0 := by decide
  omega

/-- Such a word is at least zero. -/
theorem take_sge_zero {w : BitVec 32} (h0 : 0 ≤ w.toInt) : IntOp.cmpi .sge w 0#32 = 1#1 := by
  have z : (0#32 : BitVec 32).toInt = 0 := by decide
  exact IntOp.cmpi_sge.2 (by omega)

/-- A word below eight as a signed number is at most seven. -/
theorem take_sle_seven {w : BitVec 32} (h8 : w.toInt < 8) : IntOp.cmpi .sle w 7#32 = 1#1 := by
  have z : (7#32 : BitVec 32).toInt = 7 := by decide
  exact IntOp.cmpi_sle.2 (by omega)

/-! ## A reduction by `and` of an array of ones -/

/-- Reducing by `and`, from one, an array whose every bit is one gives one at every result index, whatever the axes. -/
theorem take_reduce_andi_one {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  generalize (((List.finRange s.numel).map s.rowMajor.symm).filter fun i => h.drop i = j) = l
  induction l with
  | nil => rfl
  | cons a l ih =>
    rw [List.foldl_cons, hx a, show IntOp.andi (1#1) (1#1) = 1#1 from by decide]
    exact ih

/-! ## The index chain the three takes share -/

/-- The index vector laid along the first axis of a [16384, 1, 1] array: every entry names a stack. -/
theorem take_v0_range (x1 : IVec S16384 32) (hin : InRange x1) (i : S16384x1x1.Idx) :
    0 ≤ (val_main_v0 (F := Ideal) x1 i).toInt ∧ (val_main_v0 (F := Ideal) x1 i).toInt < 8 := by
  rw [val_main_v0_apply,
    show idx_main_v0 i = ix1 (⟨(i 0).val, (i 0).isLt⟩ : Fin 16384) from funext fun a => match a with | ⟨0, _⟩ => rfl]
  exact hin _

/-- Entry (n, 0, 0) of that array is entry n of the index vector. -/
theorem take_v0_at (x1 : IVec S16384 32) (n : Fin 16384) :
    val_main_v0 (F := Ideal) x1 (ix3 n (0 : Fin 1) (0 : Fin 1)) = x1 (ix1 n) := by
  rw [val_main_v0_apply]
  exact congrArg x1 (funext fun a => match a with | ⟨0, _⟩ => rfl)

/-- No index is negative, so the start indices (the index, plus 8 where negative) are the indices. -/
theorem take_start (x1 : IVec S16384 32) (hin : InRange x1) (i : S16384x1x1.Idx) :
    val_main_call0_v4 (F := Ideal) x1 i = val_main_v0 (F := Ideal) x1 i := by
  rw [val_main_call0_v4_apply, val_main_call0_v1_apply, val_main_call0_v0_apply, val_main_call0_c_apply,
    take_slt_zero (take_v0_range x1 hin i).1, select_zero]

/-- Every start index lies in 0 … 7. -/
theorem take_inb (x1 : IVec S16384 32) (hin : InRange x1) (i : S16384x1x1.Idx) :
    val_main_call0_v10 (F := Ideal) x1 i = 1#1 := by
  rw [val_main_call0_v10_apply, val_main_call0_v6_apply, val_main_call0_v9_apply, take_start x1 hin i,
    val_main_call0_v5_apply, val_main_call0_c_2_apply, val_main_call0_v8_apply, val_main_call0_v7_apply,
    val_main_call0_c_1_apply, take_sge_zero (take_v0_range x1 hin i).1, take_sle_seven (take_v0_range x1 hin i).2]
  decide

/-- So the in-bounds mask is one everywhere. -/
theorem take_mask (x1 : IVec S16384 32) (hin : InRange x1) (j : S16384x1.Idx) :
    val_main_call0_v11 (F := Ideal) x1 j = 1#1 := by
  unfold val_main_call0_v11
  exact take_reduce_andi_one _ _ _ _ (take_inb x1 hin) (fun _ => rfl) j

/-- The clamped start index of row n is the stack its index names. -/
theorem take_stack (x1 : IVec S16384 32) (hin : InRange x1) (n : Fin 16384)
    (h : min (val_main_call0_v4 (F := Ideal) x1 (ix3 n (0 : Fin 1) (0 : Fin 1))).toInt.toNat (8 - 1) < 8) :
    (⟨min (val_main_call0_v4 (F := Ideal) x1 (ix3 n (0 : Fin 1) (0 : Fin 1))).toInt.toNat (8 - 1), h⟩ : Fin 8)
      = stackOf (x1 (ix1 n)) := by
  refine Fin.ext ?_
  show min (val_main_call0_v4 (F := Ideal) x1 (ix3 n (0 : Fin 1) (0 : Fin 1))).toInt.toNat (8 - 1) = min (x1 (ix1 n)).toInt.toNat 7
  rw [take_start x1 hin, take_v0_at]

/-- The second and third takes compute the same start indices and the same mask as the first. -/
theorem take_v4_call2 (x1 : IVec S16384 32) : val_main_call2_v4 (F := Ideal) x1 = val_main_call0_v4 (F := Ideal) x1 := rfl
theorem take_v4_call4 (x1 : IVec S16384 32) : val_main_call4_v4 (F := Ideal) x1 = val_main_call0_v4 (F := Ideal) x1 := rfl
theorem take_v11_call2 (x1 : IVec S16384 32) : val_main_call2_v11 (F := Ideal) x1 = val_main_call0_v11 (F := Ideal) x1 := rfl
theorem take_v11_call4 (x1 : IVec S16384 32) : val_main_call4_v11 (F := Ideal) x1 = val_main_call0_v11 (F := Ideal) x1 := rfl

/-! ## The three takes -/

/-- The first take: the selected stack of the first layer's reshaped output. -/
theorem take1 (x0 : FVec Ideal S16384x1536 .f32) (x1 : IVec S16384 32) (x2 : FVec Ideal S128x1536 .f32) (x3 : FVec Ideal S128 .f32)
    (x4 : FVec Ideal S16x1536 .f32) (x5 : FVec Ideal S16 .f32) (x6 : FVec Ideal S512x30 .f32) (x7 : FVec Ideal S512 .f32)
    (x8 : FVec Ideal S8x64 .f32) (x9 : FVec Ideal S8 .f32)
    (hin : InRange x1) (n : Fin 16384) (q : Fin 16) :
    val_main_v12 (F := Ideal) x0 x1 x2 x3 (ix3 n (0 : Fin 1) q) = val_main_v6 (F := Ideal) x0 x2 x3 (ix3 n (stackOf (x1 (ix1 n))) q) := by
  rw [val_main_v12_apply, val_main_call0_v13_apply, take_mask x1 hin, select_one]
  unfold val_main_call0_v12
  refine (BatchedTake.gather_apply (B := 16384) (N := 8) (W := 16) _ rfl rfl rfl rfl rfl rfl _ _ n q (by decide)).trans ?_
  rw [take_stack x1 hin n]

/-- The second take: the selected stack of the second layer's reshaped output. -/
theorem take2 (x0 : FVec Ideal S16384x1536 .f32) (x1 : IVec S16384 32) (x2 : FVec Ideal S128x1536 .f32) (x3 : FVec Ideal S128 .f32)
    (x4 : FVec Ideal S16x1536 .f32) (x5 : FVec Ideal S16 .f32) (x6 : FVec Ideal S512x30 .f32) (x7 : FVec Ideal S512 .f32)
    (x8 : FVec Ideal S8x64 .f32) (x9 : FVec Ideal S8 .f32)
    (hin : InRange x1) (n : Fin 16384) (q : Fin 64) :
    val_main_v30 (F := Ideal) x0 x1 x2 x3 x4 x5 x6 x7 (ix3 n (0 : Fin 1) q)
      = val_main_v29 (F := Ideal) x0 x1 x2 x3 x4 x5 x6 x7 (ix3 n (stackOf (x1 (ix1 n))) q) := by
  rw [val_main_v30_apply, val_main_call2_v13_apply, take_v11_call2, take_mask x1 hin, select_one]
  unfold val_main_call2_v12
  rw [take_v4_call2]
  refine (BatchedTake.gather_apply (B := 16384) (N := 8) (W := 64) _ rfl rfl rfl rfl rfl rfl _ _ n q (by decide)).trans ?_
  rw [take_stack x1 hin n]

/-- The third take: the selected output of the third layer. -/
theorem take3 (x0 : FVec Ideal S16384x1536 .f32) (x1 : IVec S16384 32) (x2 : FVec Ideal S128x1536 .f32) (x3 : FVec Ideal S128 .f32)
    (x4 : FVec Ideal S16x1536 .f32) (x5 : FVec Ideal S16 .f32) (x6 : FVec Ideal S512x30 .f32) (x7 : FVec Ideal S512 .f32)
    (x8 : FVec Ideal S8x64 .f32) (x9 : FVec Ideal S8 .f32)
    (hin : InRange x1) (n : Fin 16384) :
    val_main_v39 (F := Ideal) x0 x1 x2 x3 x4 x5 x6 x7 x8 x9 (ix3 n (0 : Fin 1) (0 : Fin 1))
      = val_main_v38 (F := Ideal) x0 x1 x2 x3 x4 x5 x6 x7 x8 x9 (ix3 n (stackOf (x1 (ix1 n))) (0 : Fin 1)) := by
  rw [val_main_v39_apply, val_main_call4_v13_apply, take_v11_call4, take_mask x1 hin, select_one]
  unfold val_main_call4_v12
  rw [take_v4_call4]
  refine (BatchedTake.gather_apply (B := 16384) (N := 8) (W := 1) _ rfl rfl rfl rfl rfl rfl _ _ n (0 : Fin 1) (by decide)).trans ?_
  rw [take_stack x1 hin n]

end Cert.ReferenceIdeal.RefValue

end
-- ==== Proof.RefL1.lean ====
/-
  The reference's first layer, read at a row.

  All 128 first-layer outputs of row `n` are the row times the rows of the weight matrix plus the bias: the product is taken
  with the transposed weights, whose (k, j) entry is the weight (j, k), and the bias reaches (n, j) through two broadcasts
  that keep only j. The shared block of 16 is the same with its own weights and bias. The selected stack is read through
  two reshapes around the take along the stack axis: [16384, 1, 16] → [16384, 16] sends (n, q) to (n, 0, q), the take puts
  the stack the row's index names there, and [16384, 128] → [16384, 8, 16] reads (n, c, q) at (n, 16c + q).
-/
import proofs.«431040_j52974126629260_2_alg».proof.Proof.RefTake

noncomputable section

namespace Cert.ReferenceIdeal.RefValue

open Cert.ReferenceIdeal Cert.ReferenceIdeal.ReadP Cert.Moe Idealize.ShloMosaic Idealize.ShloMosaic.ValueIdx

/-- The left operand of the first product is read at row `n`, column `k`. -/
theorem refl1_lidx_v2 (n : Fin 16384) (j : Fin 128) (k : Fin 1536) :
    lidx_main_v2 (ix2 n j) k = ix2 n k :=
  funext fun a => Fin.ext (by match a with | ⟨0, _⟩ => rfl | ⟨1, _⟩ => rfl)

/-- The transposed weights at (k, j) are the weights at (j, k). -/
theorem refl1_ridx_v2 (n : Fin 16384) (j : Fin 128) (k : Fin 1536) :
    idx_main_v1 (ridx_main_v2 (ix2 n j) k) = ix2 j k :=
  funext fun a => Fin.ext (by match a with | ⟨0, _⟩ => rfl | ⟨1, _⟩ => rfl)

/-- The twice-broadcast bias at (n, j) is the bias at j. -/
theorem refl1_bidx_v4 (n : Fin 16384) (j : Fin 128) :
    idx_main_v3 (idx_main_v4 (ix2 n j)) = ix1 j :=
  funext fun a => Fin.ext (by match a with | ⟨0, _⟩ => rfl)

/-- All first-layer stacks: the matrix product with the transposed weights plus the broadcast bias. -/
theorem ref_lin1 (x0 : FVec Ideal S16384x1536 .f32) (x1 : IVec S16384 32) (x2 : FVec Ideal S128x1536 .f32) (x3 : FVec Ideal S128 .f32)
    (x4 : FVec Ideal S16x1536 .f32) (x5 : FVec Ideal S16 .f32) (x6 : FVec Ideal S512x30 .f32) (x7 : FVec Ideal S512 .f32)
    (x8 : FVec Ideal S8x64 .f32) (x9 : FVec Ideal S8 .f32)
    (n : Fin 16384) (j : Fin 128) :
    val_main_v5 (F := Ideal) x0 x2 x3 (ix2 n j) = lin1 (paramsOf x2 x3 x4 x5 x6 x7 x8 x9) (fun k => x0 (ix2 n k)) j := by
  rw [val_main_v5_apply, val_main_v2_apply, val_main_v4_apply, val_main_v3_apply]
  simp only [val_main_v1_apply, refl1_lidx_v2, refl1_ridx_v2, refl1_bidx_v4, Ideal.addf_def]
  rfl

/-- The left operand of the shared block's product is read at row `n`, column `k`. -/
theorem refl1_lidx_v8 (n : Fin 16384) (q : Fin 16) (k : Fin 1536) :
    lidx_main_v8 (ix2 n q) k = ix2 n k :=
  funext fun a => Fin.ext (by match a with | ⟨0, _⟩ => rfl | ⟨1, _⟩ => rfl)

/-- The transposed shared weights at (k, q) are the shared weights at (q, k). -/
theorem refl1_ridx_v8 (n : Fin 16384) (q : Fin 16) (k : Fin 1536) :
    idx_main_v7 (ridx_main_v8 (ix2 n q) k) = ix2 q k :=
  funext fun a => Fin.ext (by match a with | ⟨0, _⟩ => rfl | ⟨1, _⟩ => rfl)

/-- The twice-broadcast shared bias at (n, q) is the bias at q. -/
theorem refl1_bidx_v10 (n : Fin 16384) (q : Fin 16) :
    idx_main_v9 (idx_main_v10 (ix2 n q)) = ix1 q :=
  funext fun a => Fin.ext (by match a with | ⟨0, _⟩ => rfl)

/-- Dropping the size-one stack axis: (n, q) of the reshaped array is (n, 0, q) of the taken one. -/
theorem refl1_idx_v13 (n : Fin 16384) (q : Fin 16) :
    idx_main_v13 (ix2 n q) = ix3 n (0 : Fin 1) q :=
  funext fun a => Fin.ext (by
    have hq : q.val < 16 := q.isLt
    match a with
    | ⟨0, _⟩ => show (n.val * 16 + q.val) / 16 = n.val; omega
    | ⟨1, _⟩ => rfl
    | ⟨2, _⟩ => show (n.val * 16 + q.val) % 16 = q.val; omega)

/-- Splitting the 128 outputs into 8 stacks of 16: (n, c, q) of the reshaped array is (n, 16c + q) of the flat one. -/
theorem refl1_idx_v6 (n : Fin 16384) (c : Fin 8) (q : Fin 16) :
    idx_main_v6 (ix3 n c q) = ix2 n (⟨c.val * 16 + q.val, by omega⟩ : Fin 128) :=
  funext fun a => Fin.ext (by
    have hc : c.val < 8 := c.isLt
    have hq : q.val < 16 := q.isLt
    match a with
    | ⟨0, _⟩ => show ((n.val * 8 + c.val) * 16 + q.val) / 128 = n.val; omega
    | ⟨1, _⟩ => show ((n.val * 8 + c.val) * 16 + q.val) % 128 = c.val * 16 + q.val; omega)

/-- The selected stack, after the take and its reshape. -/
theorem ref_pick1 (x0 : FVec Ideal S16384x1536 .f32) (x1 : IVec S16384 32) (x2 : FVec Ideal S128x1536 .f32) (x3 : FVec Ideal S128 .f32)
    (x4 : FVec Ideal S16x1536 .f32) (x5 : FVec Ideal S16 .f32) (x6 : FVec Ideal S512x30 .f32) (x7 : FVec Ideal S512 .f32)
    (x8 : FVec Ideal S8x64 .f32) (x9 : FVec Ideal S8 .f32)
    (hin : InRange x1) (n : Fin 16384) (q : Fin 16) :
    val_main_v13 (F := Ideal) x0 x1 x2 x3 (ix2 n q) = pick1 (paramsOf x2 x3 x4 x5 x6 x7 x8 x9) (fun k => x0 (ix2 n k)) (stackOf (x1 (ix1 n))) q := by
  rw [val_main_v13_apply, refl1_idx_v13, take1 x0 x1 x2 x3 x4 x5 x6 x7 x8 x9 hin n q, val_main_v6_apply, refl1_idx_v6,
    ref_lin1 x0 x1 x2 x3 x4 x5 x6 x7 x8 x9]
  rfl

/-- The shared block. -/
theorem ref_linf (x0 : FVec Ideal S16384x1536 .f32) (x1 : IVec S16384 32) (x2 : FVec Ideal S128x1536 .f32) (x3 : FVec Ideal S128 .f32)
    (x4 : FVec Ideal S16x1536 .f32) (x5 : FVec Ideal S16 .f32) (x6 : FVec Ideal S512x30 .f32) (x7 : FVec Ideal S512 .f32)
    (x8 : FVec Ideal S8x64 .f32) (x9 : FVec Ideal S8 .f32)
    (n : Fin 16384) (q : Fin 16) :
    val_main_v11 (F := Ideal) x0 x4 x5 (ix2 n q) = linf (paramsOf x2 x3 x4 x5 x6 x7 x8 x9) (fun k => x0 (ix2 n k)) q := by
  rw [val_main_v11_apply, val_main_v8_apply, val_main_v10_apply, val_main_v9_apply]
  simp only [val_main_v7_apply, refl1_lidx_v8, refl1_ridx_v8, refl1_bidx_v10, Ideal.addf_def]
  rfl

end Cert.ReferenceIdeal.RefValue

end
-- ==== Proof.RefHid.lean ====
/-
  The reference's hidden values: squares and sums side by side, clipped.

  At a row n the reference adds the first 15 columns of the selected first-layer stack and of the shared block (the
  row's `mix`), lays the squares times 127/128 (columns 0 … 14) beside the sums (columns 15 … 29), and clips every
  entry into [0, 1] by a maximum with a broadcast 0 and a minimum with a broadcast 1. Read at (n, p) this is `hid` at p:
  the side-by-side array is read on either side of column 15, and the sum is `mix` by the first layer's two theorems.
-/
import proofs.«431040_j52974126629260_2_alg».proof.Proof.RefL1

noncomputable section

namespace Cert.ReferenceIdeal.RefValue

open Cert.ReferenceIdeal Cert.ReferenceIdeal.ReadP Cert.Moe Idealize.ShloMosaic Idealize.ShloMosaic.ValueIdx

/-- The selected stack plus the shared block at (n, p), p below 15, is the row's `mix` at p. -/
theorem hid_mix (x0 : FVec Ideal S16384x1536 .f32) (x1 : IVec S16384 32) (x2 : FVec Ideal S128x1536 .f32) (x3 : FVec Ideal S128 .f32)
    (x4 : FVec Ideal S16x1536 .f32) (x5 : FVec Ideal S16 .f32) (x6 : FVec Ideal S512x30 .f32) (x7 : FVec Ideal S512 .f32)
    (x8 : FVec Ideal S8x64 .f32) (x9 : FVec Ideal S8 .f32)
    (hin : InRange x1) (n : Fin 16384) (p : Fin 15) :
    val_main_v18 (F := Ideal) x0 x1 x2 x3 x4 x5 (ix2 n p)
      = mix (paramsOf x2 x3 x4 x5 x6 x7 x8 x9) (fun k => x0 (ix2 n k)) (stackOf (x1 (ix1 n))) p := by
  have e14 : idx_main_v14 (ix2 n p) = ix2 n (⟨p.val, by omega⟩ : Fin 16) :=
    funext fun a => Fin.ext (by match a with | ⟨0, _⟩ => rfl | ⟨1, _⟩ => rfl)
  have e16 : idx_main_v16 (ix2 n p) = ix2 n (⟨p.val, by omega⟩ : Fin 16) :=
    funext fun a => Fin.ext (by match a with | ⟨0, _⟩ => rfl | ⟨1, _⟩ => rfl)
  rw [val_main_v18_apply, val_main_v14_apply, val_main_v16_apply, e14, e16,
    ref_pick1 x0 x1 x2 x3 x4 x5 x6 x7 x8 x9 hin, ref_linf x0 x1 x2 x3 x4 x5 x6 x7 x8 x9]
  rfl

/-- The side-by-side array at a column below 15 is the scaled square at that column. -/
theorem hid_cat_left (x0 : FVec Ideal S16384x1536 .f32) (x1 : IVec S16384 32) (x2 : FVec Ideal S128x1536 .f32) (x3 : FVec Ideal S128 .f32)
    (x4 : FVec Ideal S16x1536 .f32) (x5 : FVec Ideal S16 .f32)
    (n : Fin 16384) (p : Fin 30) (h : p.val < 15) :
    val_main_v22 (F := Ideal) x0 x1 x2 x3 x4 x5 (ix2 n p)
      = val_main_v21 (F := Ideal) x0 x1 x2 x3 x4 x5 (ix2 n (⟨p.val, h⟩ : Fin 15)) := by
  unfold val_main_v22
  exact concatenate_pair_apply_left _ _ _ Gen.concatenates_S16384x15_S16384x15_S16384x30_d1 (ix2 n p) rfl
    (ix2 n (⟨p.val, h⟩ : Fin 15)) (fun b => match b with | ⟨0, _⟩ => rfl | ⟨1, _⟩ => rfl)

/-- The side-by-side array at a column from 15 on is the sum at that column less 15. -/
theorem hid_cat_right (x0 : FVec Ideal S16384x1536 .f32) (x1 : IVec S16384 32) (x2 : FVec Ideal S128x1536 .f32) (x3 : FVec Ideal S128 .f32)
    (x4 : FVec Ideal S16x1536 .f32) (x5 : FVec Ideal S16 .f32)
    (n : Fin 16384) (p : Fin 30) (h : ¬ p.val < 15) :
    val_main_v22 (F := Ideal) x0 x1 x2 x3 x4 x5 (ix2 n p)
      = val_main_v18 (F := Ideal) x0 x1 x2 x3 x4 x5 (ix2 n (⟨p.val - 15, by omega⟩ : Fin 15)) := by
  unfold val_main_v22
  exact concatenate_pair_apply_right _ _ _ Gen.concatenates_S16384x15_S16384x15_S16384x30_d1 (ix2 n p) rfl rfl
    (ix2 n (⟨p.val - 15, by omega⟩ : Fin 15))
    (fun b hb => match b, hb with
      | ⟨0, _⟩, _ => rfl
      | ⟨1, _⟩, hb => absurd rfl hb)
    (by show (p.val - 15) + 15 = p.val; omega)

theorem ref_hid (x0 : FVec Ideal S16384x1536 .f32) (x1 : IVec S16384 32) (x2 : FVec Ideal S128x1536 .f32) (x3 : FVec Ideal S128 .f32)
    (x4 : FVec Ideal S16x1536 .f32) (x5 : FVec Ideal S16 .f32) (x6 : FVec Ideal S512x30 .f32) (x7 : FVec Ideal S512 .f32)
    (x8 : FVec Ideal S8x64 .f32) (x9 : FVec Ideal S8 .f32)
    (hin : InRange x1) (n : Fin 16384) (p : Fin 30) :
    val_main_v23 (F := Ideal) x0 x1 x2 x3 x4 x5 (ix2 n p) = hid (paramsOf x2 x3 x4 x5 x6 x7 x8 x9) (fun k => x0 (ix2 n k)) (stackOf (x1 (ix1 n))) p := by
  rw [val_main_v23_apply, val_main_call1_v4_apply, val_main_call1_v3_apply, val_main_cst_1_apply,
    val_main_call1_v2_apply, val_main_call1_v1_apply, val_main_call1_v0_apply, val_main_cst_0_apply]
  unfold hid clip01
  simp only [Ideal.minimumf_def, Ideal.maximumf_def, Ideal.ofBits_def]
  refine congrArg (min _) (congrArg (max _) ?_)
  by_cases h : p.val < 15
  · rw [dif_pos h, hid_cat_left x0 x1 x2 x3 x4 x5 n p h, val_main_v21_apply, val_main_v19_apply, val_main_v20_apply,
      val_main_cst_apply, hid_mix x0 x1 x2 x3 x4 x5 x6 x7 x8 x9 hin]
    rfl
  · rw [dif_neg h, hid_cat_right x0 x1 x2 x3 x4 x5 n p h, hid_mix x0 x1 x2 x3 x4 x5 x6 x7 x8 x9 hin]

end Cert.ReferenceIdeal.RefValue

end
-- ==== Proof.RefL2.lean ====
/-
  The reference's second layer, read at a row.

  The second affine layer is a contraction of the 30 hidden values of a row with the transposed weight array, plus the bias
  broadcast along the rows: at row n and output j it is (∑ p, hidden n p * W2 j p) + b2 j. Reshaped to 8 stacks of 64, the
  stack the row's index names is taken, and the result is clipped into [0, 1]: entry q of the selected stack c is output
  c * 64 + q of the layer.
-/
import proofs.«431040_j52974126629260_2_alg».proof.Proof.RefHid

noncomputable section

namespace Cert.ReferenceIdeal.RefValue

open Cert.ReferenceIdeal Cert.ReferenceIdeal.ReadP Cert.Moe Idealize.ShloMosaic Idealize.ShloMosaic.ValueIdx

/-- All second-layer stacks. -/
theorem ref_lin2 (x0 : FVec Ideal S16384x1536 .f32) (x1 : IVec S16384 32) (x2 : FVec Ideal S128x1536 .f32) (x3 : FVec Ideal S128 .f32)
    (x4 : FVec Ideal S16x1536 .f32) (x5 : FVec Ideal S16 .f32) (x6 : FVec Ideal S512x30 .f32) (x7 : FVec Ideal S512 .f32)
    (x8 : FVec Ideal S8x64 .f32) (x9 : FVec Ideal S8 .f32)
    (hin : InRange x1) (n : Fin 16384) (j : Fin 512) :
    val_main_v28 (F := Ideal) x0 x1 x2 x3 x4 x5 x6 x7 (ix2 n j) = lin2 (paramsOf x2 x3 x4 x5 x6 x7 x8 x9) (fun k => x0 (ix2 n k)) (stackOf (x1 (ix1 n))) j := by
  -- term k of the contraction reads the hidden values at (n, k) …
  have e1 : ∀ k : Fin 30, lidx_main_v25 (ix2 n j) k = ix2 n k := fun k =>
    funext fun a => Fin.ext (by match a with | ⟨0, _⟩ => rfl | ⟨1, _⟩ => rfl)
  -- … and, through the transpose, the weight at (j, k)
  have e2 : ∀ k : Fin 30, idx_main_v24 (ridx_main_v25 (ix2 n j) k) = ix2 j k := fun k =>
    funext fun a => Fin.ext (by match a with | ⟨0, _⟩ => rfl | ⟨1, _⟩ => rfl)
  -- the twice-broadcast bias at (n, j) is the bias at j
  have e3 : idx_main_v26 (idx_main_v27 (ix2 n j)) = ix1 j :=
    funext fun a => Fin.ext (by match a with | ⟨0, _⟩ => rfl)
  rw [val_main_v28_apply, val_main_v25_apply, val_main_v27_apply, val_main_v26_apply]
  simp only [val_main_v24_apply, e1, e2, e3, ref_hid x0 x1 x2 x3 x4 x5 x6 x7 x8 x9 hin, Ideal.addf_def]
  rfl

/-- The selected stack, after the take, its reshape and the clip. -/
theorem ref_pick2 (x0 : FVec Ideal S16384x1536 .f32) (x1 : IVec S16384 32) (x2 : FVec Ideal S128x1536 .f32) (x3 : FVec Ideal S128 .f32)
    (x4 : FVec Ideal S16x1536 .f32) (x5 : FVec Ideal S16 .f32) (x6 : FVec Ideal S512x30 .f32) (x7 : FVec Ideal S512 .f32)
    (x8 : FVec Ideal S8x64 .f32) (x9 : FVec Ideal S8 .f32)
    (hin : InRange x1) (n : Fin 16384) (q : Fin 64) :
    val_main_v32 (F := Ideal) x0 x1 x2 x3 x4 x5 x6 x7 (ix2 n q) = pick2 (paramsOf x2 x3 x4 x5 x6 x7 x8 x9) (fun k => x0 (ix2 n k)) (stackOf (x1 (ix1 n))) q := by
  -- dropping the unit axis: (n, q) of [16384, 64] is (n, 0, q) of [16384, 1, 64], since (64 n + q) / 64 = n and (64 n + q) % 64 = q
  have e1 : idx_main_v31 (ix2 n q) = ix3 n (0 : Fin 1) q :=
    funext fun a => Fin.ext (by
      have hn := n.isLt
      have hq := q.isLt
      match a with
      | ⟨0, _⟩ => show (n.val * 64 + q.val) / 64 = n.val; omega
      | ⟨1, _⟩ => rfl
      | ⟨2, _⟩ => show (n.val * 64 + q.val) % 64 = q.val; omega)
  -- splitting 512 into 8 × 64: (n, c, q) of [16384, 8, 64] is (n, 64 c + q) of [16384, 512]
  have e2 : ∀ c : Fin 8, idx_main_v29 (ix3 n c q) = ix2 n (⟨c.val * 64 + q.val, by omega⟩ : Fin 512) := fun c =>
    funext fun a => Fin.ext (by
      have hn := n.isLt
      have hq := q.isLt
      have hc := c.isLt
      match a with
      | ⟨0, _⟩ => show ((n.val * 8 + c.val) * 64 + q.val) / 512 = n.val; omega
      | ⟨1, _⟩ => show ((n.val * 8 + c.val) * 64 + q.val) % 512 = c.val * 64 + q.val; omega)
  rw [val_main_v32_apply, val_main_call3_v4_apply, val_main_call3_v3_apply, val_main_cst_3_apply,
    val_main_call3_v2_apply, val_main_call3_v1_apply, val_main_call3_v0_apply, val_main_cst_2_apply,
    val_main_v31_apply, e1, take2 x0 x1 x2 x3 x4 x5 x6 x7 x8 x9 hin, val_main_v29_apply, e2,
    ref_lin2 x0 x1 x2 x3 x4 x5 x6 x7 x8 x9 hin]
  simp only [Ideal.minimumf_def, Ideal.maximumf_def, Ideal.ofBits_def]
  rfl

end Cert.ReferenceIdeal.RefValue

end
-- ==== Proof.RefL3.lean ====
/-
  The reference's third layer and its result.

  The third layer's output `d` for row `n` is the sum over the 64 clipped second-layer values of the selected stack times
  row `d` of the output weights, plus the output bias at `d`. The result for row `n` keeps the output whose number is the
  row's stack index, and adds to it the 16th output of the shared first-layer block and then the 16th output of the
  selected first-layer stack, in that order.
-/
import proofs.«431040_j52974126629260_2_alg».proof.Proof.RefL2

noncomputable section

namespace Cert.ReferenceIdeal.RefValue

open Cert.ReferenceIdeal Cert.ReferenceIdeal.ReadP Cert.Moe Idealize.ShloMosaic Idealize.ShloMosaic.ValueIdx

/-- The left operand of the third product is read at row `n`, column `k`. -/
theorem refL3_lidx34 (n : Fin 16384) (d : Fin 8) (k : Fin 64) : lidx_main_v34 (ix2 n d) k = ix2 n k :=
  funext fun a => Fin.ext (by match a with | ⟨0, _⟩ => rfl | ⟨1, _⟩ => rfl)

/-- The transposed weight is read at row `d`, column `k` of the stored one. -/
theorem refL3_ridx34 (n : Fin 16384) (d : Fin 8) (k : Fin 64) : idx_main_v33 (ridx_main_v34 (ix2 n d) k) = ix2 d k :=
  funext fun a => Fin.ext (by match a with | ⟨0, _⟩ => rfl | ⟨1, _⟩ => rfl)

/-- The twice-broadcast bias is read at `d`. -/
theorem refL3_bidx36 (n : Fin 16384) (d : Fin 8) : idx_main_v35 (idx_main_v36 (ix2 n d)) = ix1 d :=
  funext fun a => Fin.ext (by match a with | ⟨0, _⟩ => rfl)

/-- The third layer's eight outputs. -/
theorem ref_lin3 (x0 : FVec Ideal S16384x1536 .f32) (x1 : IVec S16384 32) (x2 : FVec Ideal S128x1536 .f32) (x3 : FVec Ideal S128 .f32)
    (x4 : FVec Ideal S16x1536 .f32) (x5 : FVec Ideal S16 .f32) (x6 : FVec Ideal S512x30 .f32) (x7 : FVec Ideal S512 .f32)
    (x8 : FVec Ideal S8x64 .f32) (x9 : FVec Ideal S8 .f32)
    (hin : InRange x1) (n : Fin 16384) (d : Fin 8) :
    val_main_v37 (F := Ideal) x0 x1 x2 x3 x4 x5 x6 x7 x8 x9 (ix2 n d) = lin3 (paramsOf x2 x3 x4 x5 x6 x7 x8 x9) (fun k => x0 (ix2 n k)) (stackOf (x1 (ix1 n))) d := by
  rw [val_main_v37_apply, val_main_v34_apply, val_main_v36_apply, val_main_v35_apply]
  simp only [val_main_v33_apply, refL3_lidx34, refL3_ridx34, refL3_bidx36, ref_pick2 x0 x1 x2 x3 x4 x5 x6 x7 x8 x9 hin, Ideal.addf_def]
  rfl

/-- Row `n` of the one-column result is read from the gathered array at `(n, 0, 0)`. -/
theorem refL3_idx40 (n : Fin 16384) : idx_main_v40 (ix2 n (0 : Fin 1)) = ix3 n (0 : Fin 1) (0 : Fin 1) :=
  funext fun a => Fin.ext (by
    match a with
    | ⟨0, _⟩ => show (n.val * 1 + 0) / 1 = n.val; omega
    | ⟨1, _⟩ => rfl
    | ⟨2, _⟩ => rfl)

/-- The reshaped third layer at `(n, c, 0)` is the third layer at `(n, c)`. -/
theorem refL3_idx38 (n : Fin 16384) (c : Fin 8) : idx_main_v38 (ix3 n c (0 : Fin 1)) = ix2 n c :=
  funext fun a => Fin.ext (by
    match a with
    | ⟨0, _⟩ => show ((n.val * 8 + c.val) * 1 + 0) / 8 = n.val; omega
    | ⟨1, _⟩ => show ((n.val * 8 + c.val) * 1 + 0) % 8 = c.val; omega)

/-- The shared block's kept column is its 16th. -/
theorem refL3_idx17 (n : Fin 16384) : idx_main_v17 (ix2 n (0 : Fin 1)) = ix2 n (⟨15, by omega⟩ : Fin 16) :=
  funext fun a => Fin.ext (by match a with | ⟨0, _⟩ => rfl | ⟨1, _⟩ => rfl)

/-- The selected stack's kept column is its 16th. -/
theorem refL3_idx15 (n : Fin 16384) : idx_main_v15 (ix2 n (0 : Fin 1)) = ix2 n (⟨15, by omega⟩ : Fin 16) :=
  funext fun a => Fin.ext (by match a with | ⟨0, _⟩ => rfl | ⟨1, _⟩ => rfl)

/-- THE REFERENCE'S RESULT is the common function of the arguments. -/
theorem ref_value (x0 : FVec Ideal S16384x1536 .f32) (x1 : IVec S16384 32) (x2 : FVec Ideal S128x1536 .f32) (x3 : FVec Ideal S128 .f32)
    (x4 : FVec Ideal S16x1536 .f32) (x5 : FVec Ideal S16 .f32) (x6 : FVec Ideal S512x30 .f32) (x7 : FVec Ideal S512 .f32)
    (x8 : FVec Ideal S8x64 .f32) (x9 : FVec Ideal S8 .f32)
    (hin : InRange x1) :
    val_main_v42 (F := Ideal) x0 x1 x2 x3 x4 x5 x6 x7 x8 x9 = G x0 x1 x2 x3 x4 x5 x6 x7 x8 x9 := by
  funext i
  obtain ⟨n, rfl⟩ : ∃ n : Fin 16384, i = ix2 n (0 : Fin 1) :=
    ⟨i 0, (eq_ix2 i).trans (congrArg (ix2 (i 0)) (Fin.ext (by have h := idx2_lt1 i; show (i 1).val = 0; omega)))⟩
  rw [G_apply, val_main_v42_apply, val_main_v41_apply, val_main_v40_apply, val_main_v17_apply, val_main_v15_apply,
    refL3_idx40, refL3_idx17, refL3_idx15, take3 x0 x1 x2 x3 x4 x5 x6 x7 x8 x9 hin, val_main_v38_apply, refL3_idx38,
    ref_lin3 x0 x1 x2 x3 x4 x5 x6 x7 x8 x9 hin, ref_linf x0 x1 x2 x3 x4 x5 x6 x7 x8 x9, ref_pick1 x0 x1 x2 x3 x4 x5 x6 x7 x8 x9 hin]
  simp only [Ideal.addf_def]
  rfl

end Cert.ReferenceIdeal.RefValue

end
-- ==== Proof.lean ====
/-
  The proof of `Cert.Claim`: the three frames, `preserves` (the idealization rewrote nothing: trivial) and `algebraic`.

  The kernel: a batch of 16384 rows, each with an index naming one of 8 stacks, goes through three small affine layers;
  all 8 stacks of a layer are computed by one matrix product per 1024-row block, and the row's stack is selected by
  multiplying with a 0/1 indicator and summing over the stacks. The reference computes the same layers on the whole batch
  and selects by `take_along_axis`. At the ideal instance both are the function `Cert.Moe.G` of the arguments (Proof/Spec.lean):
  format changes are the identity, a matrix product into a zero accumulator and a host dot product are the same finite sum,
  and an indicator-weighted sum is the selected entry (0 · a = 0 and 0 + a = a for every extended real, so no finiteness is
  used). The program around the kernel clamps the indices into 0 … 7 while the reference's take wraps negative indices and
  fills out-of-range ones; the two agree exactly where every index names a stack, which the precondition states
  (Proof/PreRange.lean reads it off).

  Kernel side: Proof/KBody*.lean read the body's stored value at one row; Proof/KHost.lean the arrays the program around the
  kernel prepared; Proof/KArray.lean goes from the blocks the grid points write to the whole array, over the generated frame
  run and blockwise value leg. Reference side: Proof/RefTake.lean … Proof/RefL3.lean read the run's result stage by stage.
-/
import proofs.«431040_j52974126629260_2_alg».proof.Defs
import proofs.«431040_j52974126629260_2_alg».proof.Proof.Gen.Kernel
import proofs.«431040_j52974126629260_2_alg».proof.Proof.Gen.Kernel.Skeleton
import proofs.«431040_j52974126629260_2_alg».proof.Proof.Gen.Kernel.Launch
import proofs.«431040_j52974126629260_2_alg».proof.Proof.Gen.Kernel.Points
import proofs.«431040_j52974126629260_2_alg».proof.Proof.Gen.Kernel.Frame
import proofs.«431040_j52974126629260_2_alg».proof.Proof.Gen.KernelIdeal
import proofs.«431040_j52974126629260_2_alg».proof.Proof.Gen.KernelIdeal.Skeleton
import proofs.«431040_j52974126629260_2_alg».proof.Proof.Gen.KernelIdeal.Launch
import proofs.«431040_j52974126629260_2_alg».proof.Proof.Gen.KernelIdeal.Points
import proofs.«431040_j52974126629260_2_alg».proof.Proof.Gen.KernelIdeal.Frame
import proofs.«431040_j52974126629260_2_alg».proof.Proof.Gen.ReferenceIdeal
import proofs.«431040_j52974126629260_2_alg».proof.Proof.Gen.Pre_finite_inputs
import proofs.«431040_j52974126629260_2_alg».proof.Proof.Gen.KernelIdeal.Value
import proofs.«431040_j52974126629260_2_alg».proof.Proof.RefRun
import proofs.«431040_j52974126629260_2_alg».proof.Proof.RefRead
import proofs.«431040_j52974126629260_2_alg».proof.Proof.PreRange
import proofs.«431040_j52974126629260_2_alg».proof.Proof.KArray
import proofs.«431040_j52974126629260_2_alg».proof.Proof.RefL3
import Idealize.ShloMosaic.Adequacy
import Idealize.ShloMosaic.Init

noncomputable section

namespace Cert.Proof

open Idealize.ShloMosaic Idealize.ShloMosaic.TcCoe Idealize.SL.Sem Cert.Moe

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the result array at `G` of the (agreeing) arguments: the kernel's by the block-to-array step
    over its frame run, the reference's by its run read stage by stage; both need only that every index names a stack. -/
theorem algebraic : Cert.algebraic_KernelIdeal_ReferenceIdeal := by
  intro m ρ m' ρ' hpre hagree
  have hin : ∀ c : Dev Cert.KernelIdeal.nD, InRange (m ((c.tc : Thread Cert.KernelIdeal.nD Cert.KernelIdeal.τ).loc Cert.KernelIdeal.main_arg1)) :=
    fun c => inRange_of_pre _ _ _ _ _ _ _ _ _ _ (hpre c)
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Arr.final m hin c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v42_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    exact Cert.ReferenceIdeal.RefValue.ref_value _ _ _ _ _ _ _ _ _ _ (hin c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
